-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 91
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S1x16, .f32⟩
  | .hbm, ⟨90, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x16, .f32⟩
  | .local _ .vmem, ⟨23, _⟩ => ⟨S1x16, .f32⟩
  | .local _ .vmem, ⟨24, _⟩ => ⟨S5000x16, .f32⟩
  | .local _ .vmem, ⟨25, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S100000x16.size a
  hwx4_3 : ∀ i : grid4.Coords, EltTy.bits .f32 = 32 ∨ (Rect.block (s := S100000x16) S5000x16.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x16, .f32⟩
  | .hbm, ⟨98, _⟩ => ⟨S1x16, .f32⟩
  | .hbm, ⟨99, _⟩ => ⟨S100000x16, .f32⟩
  | .hbm, ⟨100, _⟩ => ⟨S100000x16, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x16, .f32⟩
  | .hbm, ⟨108, _⟩ => ⟨S100000x16, .f32⟩
  | .hbm, ⟨109, _⟩ => ⟨S100000x16, .f32⟩
  | .hbm, ⟨110, _⟩ => ⟨S_, .f32⟩
  | .hbm, ⟨111, _⟩ => ⟨S100000, .f32⟩
  | .hbm, ⟨112, _⟩ => ⟨S100000x1, .f32⟩
  | .hbm, ⟨113, _⟩ => ⟨S100000x1, .f32⟩
  | .hbm, ⟨114, _⟩ => ⟨S100000x16, .f32⟩
  | .hbm, ⟨115, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call3_cst : Ref sig .tc := ⟨.hbm, 101, rfl⟩
abbrev main_call3_v0 : Ref sig .tc := ⟨.hbm, 102, rfl⟩
abbrev main_call3_cst_0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_cst_1 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_v72 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spec.lean ====
/-
  The two-layer graph convolution as whole-array functions of its inputs, one definition per stage, at any float
  instance: the edge lists with self-loops appended, the symmetric normalisation d^{-1/2}[src] * d^{-1/2}[dst] from the
  in-degree, the normalised gather / scatter-add aggregation, the dense maps (a row-by-matrix product; bias then
  max with 0; a product, bias and a row-wise log-softmax), and their composition `net`.
  Each stage is spelt with the reference program's own shape facts, so that the reference's composed result term
  is `net` of its arguments by unfolding.
-/
import proofs.«417706_j31241592111373_4_alg».proof.Proof.Gen.ReferenceIdeal
import Idealize.ShloMosaic.PureOps.Ideal

noncomputable section

namespace Cert.Spec

open Idealize.ShloMosaic Cert.ReferenceIdeal Cert.ReferenceIdeal.Gen

variable {F : FTy → Type} [FloatOps F]

/-- Row `0` of the edge list (the sources), followed by the self-loop sources `0, 1, …, N-1`. -/
def srcIdx (ei : Vec F S2x1600000 .i32) : Vec F S1700000 .i32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- Row `1` of the edge list (the targets), followed by the self-loop targets `0, 1, …, N-1`. -/
def dstIdx (ei : Vec F S2x1600000 .i32) : Vec F S1700000 .i32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A gather's index column: a negative node id counts from the end (`v + N`), any other is itself. -/
def wrapCol (v : Vec F S1700000 .i32) : Vec F S1700000x1 .i32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- A scatter's index column: the node ids as they are. -/
def col (v : Vec F S1700000 .i32) : Vec F S1700000x1 .i32 :=
  broadcastInDim S1700000x1 ![0] bcast_S1700000_S1700000x1_0 v

/-- The in-degree: one added at each edge's target. -/
def deg (dst : Vec F S1700000 .i32) : Vec F S100000 .f32 :=
  Host.scatterAdd scatter_S100000_S1700000x1_S1700000_n_0_0_1 (broadcastInDim S100000 ![] bcast_S_S100000 (constant S_ .f32 0x00000000#32)) (col dst) (broadcastInDim S1700000 ![] bcast_S_S1700000 (constant S_ .f32 0x3F800000#32))

/-- `deg^{-1/2}` where the degree is positive (the degree first raised to at least one), zero elsewhere. -/
def dinv (dst : Vec F S1700000 .i32) : Vec F S100000 .f32 :=
  select (cmpf (F := F) .ogt (deg dst) (broadcastInDim S100000 ![] bcast_S_S100000 (constant S_ .f32 0x00000000#32)))
    (Host.rsqrt (maximumf (deg dst) (broadcastInDim S100000 ![] bcast_S_S100000 (constant S_ .f32 0x3F800000#32))))
    (broadcastInDim S100000 ![] bcast_S_S100000 (id (constant S_ .f32 0x00000000#32)))

/-- The edge weights `dinv[src] * dinv[dst]`. -/
def norm (src dst : Vec F S1700000 .i32) : Vec F S1700000 .f32 :=
  mulf (Host.gather gather_S100000_S1700000x1_S1700000_n_0_n_n_0_1_1 (dinv dst) (wrapCol src))
    (Host.gather gather_S100000_S1700000x1_S1700000_n_0_n_n_0_1_1 (dinv dst) (wrapCol dst))

/-- One aggregation: row `src e` of `h` times the weight of edge `e`, added into row `dst e`. -/
def aggOf (src dst : Vec F S1700000 .i32) (w : Vec F S1700000 .f32) (h : Vec F S100000x64 .f32) : Vec F S100000x64 .f32 :=
  Host.scatterAdd scatter_S100000x64_S1700000x1_S1700000x64_1_0_0_1 (broadcastInDim S100000x64 ![] bcast_S_S100000x64 (constant S_ .f32 0x00000000#32)) (col dst)
    (mulf (Host.gather gather_S100000x64_S1700000x1_S1700000x64_1_0_n_n_0_1_164 h (wrapCol src))
      (broadcastInDim S1700000x64 ![0, 1] bcast_S1700000x1_S1700000x64_0_1 (broadcastInDim S1700000x1 ![0] bcast_S1700000_S1700000x1_0 w)))

/-- The aggregation over the graph the edge list gives. -/
def agg (ei : Vec F S2x1600000 .i32) (h : Vec F S100000x64 .f32) : Vec F S100000x64 .f32 :=
  aggOf (srcIdx ei) (dstIdx ei) (norm (srcIdx ei) (dstIdx ei)) h

/-- Every row times the 64×64 weight matrix. -/
def lin (x : Vec F S100000x64 .f32) (W : Vec F S64x64 .f32) : Vec F S100000x64 .f32 :=
  Host.dotGeneral dot_S100000x64_S64x64_S100000x64_1_0_0_1_n_n none x W

/-- The bias row added to every row, then the maximum with zero. -/
def biasRelu (a : Vec F S100000x64 .f32) (b : Vec F S1x64 .f32) : Vec F S100000x64 .f32 :=
  maximumf (addf a (broadcastInDim S100000x64 ![0, 1] bcast_S1x64_S100000x64_0_1 b))
    (broadcastInDim S100000x64 ![] bcast_S_S100000x64 (constant S_ .f32 0x00000000#32))

/-- The logits: every row times the 64×16 matrix, plus the bias row. -/
def logits (h : Vec F S100000x64 .f32) (W : Vec F S64x16 .f32) (b : Vec F S1x16 .f32) : Vec F S100000x16 .f32 :=
  addf (Host.dotGeneral dot_S100000x64_S64x16_S100000x16_1_0_0_1_n_n none h W) (broadcastInDim S100000x16 ![0, 1] bcast_S1x16_S100000x16_0_1 b)

/-- A row's entries minus the row's maximum. -/
def shifted (z : Vec F S100000x16 .f32) : Vec F S100000x16 .f32 :=
  subf z (broadcastInDim S100000x16 ![0, 1] bcast_S100000x1_S100000x16_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x16_S100000_d1 h_S_))))

/-- Each row's maximum (from minus infinity). -/
def rowMax (z : Vec F S100000x16 .f32) : Vec F S100000 .f32 :=
  Host.reduce FloatOps.maximumf z (constant S_ .f32 0xFF800000#32) reducesTo_S100000x16_S100000_d1 h_S_

/-- The entries minus a given per-row value (itself first raised to at least minus infinity). -/
def shiftBy (z : Vec F S100000x16 .f32) (r : Vec F S100000 .f32) : Vec F S100000x16 .f32 :=
  subf z (broadcastInDim S100000x16 ![0, 1] bcast_S100000x1_S100000x16_0_1 (broadcastInDim S100000x1 ![0] bcast_S100000_S100000x1_0
    (maximumf (broadcastInDim S100000 ![] bcast_S_S100000 (constant S_ .f32 0xFF800000#32)) r)))

/-- The shift in its two steps. -/
theorem shifted_eq (z : Vec F S100000x16 .f32) : shifted z = shiftBy z (rowMax z) := rfl

/-- The row-wise log-softmax: the shifted entries minus the logarithm of the sum of their exponentials. -/
def logSoftmax (z : Vec F S100000x16 .f32) : Vec F S100000x16 .f32 :=
  subf (shifted z) (broadcastInDim S100000x16 ![0, 1] bcast_S100000x1_S100000x16_0_1 (Host.log (broadcastInDim S100000x1 ![0] bcast_S100000_S100000x1_0
    (Host.reduceAdd (Host.exp (shifted z)) (constant S_ .f32 0x00000000#32) reducesTo_S100000x16_S100000_d1 h_S_))))

/-- Shifted entries minus the logarithm of the sum of their exponentials along the row. -/
def lseSub (s : Vec F S100000x16 .f32) : Vec F S100000x16 .f32 :=
  subf s (broadcastInDim S100000x16 ![0, 1] bcast_S100000x1_S100000x16_0_1 (Host.log (broadcastInDim S100000x1 ![0] bcast_S100000_S100000x1_0
    (Host.reduceAdd (Host.exp s) (constant S_ .f32 0x00000000#32) reducesTo_S100000x16_S100000_d1 h_S_))))

/-- The log-softmax in its two steps. -/
theorem logSoftmax_eq (z : Vec F S100000x16 .f32) : logSoftmax z = lseSub (shifted z) := rfl

/-- The last dense layer with its log-softmax. -/
def fcLogSoftmax (h : Vec F S100000x64 .f32) (W : Vec F S64x16 .f32) (b : Vec F S1x16 .f32) : Vec F S100000x16 .f32 :=
  logSoftmax (logits h W b)

/-- A length-64 (length-16) bias as one row. -/
def row64 (b : Vec F S64 .f32) : Vec F S1x64 .f32 := broadcastInDim S1x64 ![1] bcast_S64_S1x64_1 b
def row16 (b : Vec F S16 .f32) : Vec F S1x16 .f32 := broadcastInDim S1x16 ![1] bcast_S16_S1x16_1 b

/-- The network: two graph convolutions (product, aggregation, bias, max with zero), the last dense layer, log-softmax. -/
def net (x : Vec F S100000x64 .f32) (ei : Vec F S2x1600000 .i32) (W1 : Vec F S64x64 .f32) (b1 : Vec F S64 .f32)
    (W2 : Vec F S64x64 .f32) (b2 : Vec F S64 .f32) (Wfc : Vec F S64x16 .f32) (bfc : Vec F S16 .f32) : Vec F S100000x16 .f32 :=
  fcLogSoftmax (biasRelu (agg ei (lin (biasRelu (agg ei (lin x W1)) (row64 b1)) W2)) (row64 b2)) Wfc (row16 bfc)

/-- The network, opened once. -/
theorem net_eq (x : Vec F S100000x64 .f32) (ei : Vec F S2x1600000 .i32) (W1 : Vec F S64x64 .f32) (b1 : Vec F S64 .f32)
    (W2 : Vec F S64x64 .f32) (b2 : Vec F S64 .f32) (Wfc : Vec F S64x16 .f32) (bfc : Vec F S16 .f32) :
    net x ei W1 b1 W2 b2 Wfc bfc
      = fcLogSoftmax (biasRelu (agg ei (lin (biasRelu (agg ei (lin x W1)) (row64 b1)) W2)) (row64 b2)) Wfc (row16 bfc) := rfl

end Cert.Spec

end
-- ==== Proof.KHost.lean ====
/-
  The host stretches of the kernel program, at any float instance: what each stretch computes (the edge lists, the inverse square-root degrees, the edge weights, an aggregation of the array the preceding pallas_call left, a bias as one row), and that an argument or an earlier stretch's buffer is read unchanged after every later stretch and pallas_call that does not write it.
-/
import proofs.«417706_j31241592111373_4_alg».proof.Proof.Gen.KernelIdeal.Frame
import proofs.«417706_j31241592111373_4_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A buffer that no operation of a host stretch writes is read after the stretch as before it. -/
macro "kept_through" ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- A length-64 vector laid out as one row: the reshape and the broadcast along the new axis are one array. -/
theorem row64_eq (b : Vec F S64 .f32) : shapeCast S1x64 b shapeCasts_S64_S1x64 = Cert.Spec.row64 b := by
  funext j
  unfold Cert.Spec.row64
  rw [shapeCast_apply b _ j (ValueIdx.ix1 ⟨(j 1).val, (j 1).isLt⟩) ?_, broadcastInDim_apply _ _ b j (ValueIdx.ix1 ⟨(j 1).val, (j 1).isLt⟩) ?_]
  · intro a; match a with | ⟨0, _⟩ => rfl
  · have h0 : (j 0).val = 0 := by have h : (j 0).val < 1 := (j 0).isLt; omega
    rw [Shape.rowMajor_val_one, Shape.rowMajor_val_two, h0]
    show (j 1).val = 0 * _ + (j 1).val
    omega

/-- A length-16 vector laid out as one row, likewise. -/
theorem row16_eq (b : Vec F S16 .f32) : shapeCast S1x16 b shapeCasts_S16_S1x16 = Cert.Spec.row16 b := by
  funext j
  unfold Cert.Spec.row16
  rw [shapeCast_apply b _ j (ValueIdx.ix1 ⟨(j 1).val, (j 1).isLt⟩) ?_, broadcastInDim_apply _ _ b j (ValueIdx.ix1 ⟨(j 1).val, (j 1).isLt⟩) ?_]
  · intro a; match a with | ⟨0, _⟩ => rfl
  · have h0 : (j 0).val = 0 := by have h : (j 0).val < 1 := (j 0).isLt; omega
    rw [Shape.rowMajor_val_one, Shape.rowMajor_val_two, h0]
    show (j 1).val = 0 * _ + (j 1).val
    omega

/-! ## Before the first pallas_call: the edge lists, the inverse square-root degrees, the edge weights -/

theorem W1_v3 (c : Dev nD) : W1 m ρ c (Proc.devRef .tc main_v3) = Cert.Spec.srcIdx (m ((c : Thread nD τ).loc main_arg1)) := by
  show StableHlo.after hostOps0 (W0 m ρ c) (Proc.devRef .tc main_v3) = _
  after_results
  rfl

theorem W1_v6 (c : Dev nD) : W1 m ρ c (Proc.devRef .tc main_v6) = Cert.Spec.dstIdx (m ((c : Thread nD τ).loc main_arg1)) := by
  show StableHlo.after hostOps0 (W0 m ρ c) (Proc.devRef .tc main_v6) = _
  after_results
  rfl

theorem W1_v12 (c : Dev nD) : W1 m ρ c (Proc.devRef .tc main_v12) = cmpf (F := F) .ogt (Cert.Spec.deg (Cert.Spec.dstIdx (m ((c : Thread nD τ).loc main_arg1)))) (broadcastInDim S100000 ![] bcast_S_S100000 (constant S_ .f32 0x00000000#32)) := by
  show StableHlo.after hostOps0 (W0 m ρ c) (Proc.devRef .tc main_v12) = _
  after_results
  rfl

theorem W1_v15 (c : Dev nD) : W1 m ρ c (Proc.devRef .tc main_v15) = Host.rsqrt (maximumf (Cert.Spec.deg (Cert.Spec.dstIdx (m ((c : Thread nD τ).loc main_arg1)))) (broadcastInDim S100000 ![] bcast_S_S100000 (constant S_ .f32 0x3F800000#32))) := by
  show StableHlo.after hostOps0 (W0 m ρ c) (Proc.devRef .tc main_v15) = _
  after_results
  rfl

theorem W1_cst_3 (c : Dev nD) : (W1 m ρ c (Proc.devRef .tc main_cst_3) : Vec F S_ .f32) = constant (F := F) S_ .f32 0x00000000#32 := by
  show StableHlo.after hostOps0 (W0 m ρ c) (Proc.devRef .tc main_cst_3) = _
  after_results

theorem W2_v16 (c : Dev nD) : W2 m ρ c (Proc.devRef .tc main_v16) = Cert.Spec.dinv (Cert.Spec.dstIdx (m ((c : Thread nD τ).loc main_arg1))) := by
  show StableHlo.after hostOps0_1 (W1 m ρ c) (Proc.devRef .tc main_v16) = _
  have e12 := W1_v12 m ρ c
  have e15 := W1_v15 m ρ c
  have e3 := W1_cst_3 m ρ c
  generalize W1 m ρ c = X at e12 e15 e3 ⊢
  after_results_simp
  rw [e12, e15, e3]
  rfl

theorem W2_v3 (c : Dev nD) : W2 m ρ c (Proc.devRef .tc main_v3) = Cert.Spec.srcIdx (m ((c : Thread nD τ).loc main_arg1)) :=
  calc W2 m ρ c (Proc.devRef .tc main_v3)
    _ = W1 m ρ c (Proc.devRef .tc main_v3) := by kept_through hostOps0_1
    _ = Cert.Spec.srcIdx (m ((c : Thread nD τ).loc main_arg1)) := W1_v3 m ρ c

theorem W2_v6 (c : Dev nD) : W2 m ρ c (Proc.devRef .tc main_v6) = Cert.Spec.dstIdx (m ((c : Thread nD τ).loc main_arg1)) :=
  calc W2 m ρ c (Proc.devRef .tc main_v6)
    _ = W1 m ρ c (Proc.devRef .tc main_v6) := by kept_through hostOps0_1
    _ = Cert.Spec.dstIdx (m ((c : Thread nD τ).loc main_arg1)) := W1_v6 m ρ c

theorem W3_v31 (c : Dev nD) : W3 m ρ c (Proc.devRef .tc main_v31) = Cert.Spec.norm (Cert.Spec.srcIdx (m ((c : Thread nD τ).loc main_arg1))) (Cert.Spec.dstIdx (m ((c : Thread nD τ).loc main_arg1))) := by
  show StableHlo.after hostOps0_2 (W2 m ρ c) (Proc.devRef .tc main_v31) = _
  have e16 := W2_v16 m ρ c
  have e3 := W2_v3 m ρ c
  have e6 := W2_v6 m ρ c
  generalize W2 m ρ c = X at e16 e3 e6 ⊢
  after_results_simp
  rw [e16, e3, e6]
  rfl

theorem W3_v3 (c : Dev nD) : W3 m ρ c (Proc.devRef .tc main_v3) = Cert.Spec.srcIdx (m ((c : Thread nD τ).loc main_arg1)) :=
  calc W3 m ρ c (Proc.devRef .tc main_v3)
    _ = W2 m ρ c (Proc.devRef .tc main_v3) := by kept_through hostOps0_2
    _ = Cert.Spec.srcIdx (m ((c : Thread nD τ).loc main_arg1)) := W2_v3 m ρ c

theorem W3_v6 (c : Dev nD) : W3 m ρ c (Proc.devRef .tc main_v6) = Cert.Spec.dstIdx (m ((c : Thread nD τ).loc main_arg1)) :=
  calc W3 m ρ c (Proc.devRef .tc main_v6)
    _ = W2 m ρ c (Proc.devRef .tc main_v6) := by kept_through hostOps0_2
    _ = Cert.Spec.dstIdx (m ((c : Thread nD τ).loc main_arg1)) := W2_v6 m ρ c

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by kept_through hostOps0_2
    _ = W1 m ρ c (Proc.devRef .tc main_arg0) := by kept_through hostOps0_1
    _ = W0 m ρ c (Proc.devRef .tc main_arg0) := by kept_through hostOps0
    _ = m ((c : Thread nD τ).loc main_arg0) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by kept_through hostOps0_2
    _ = W1 m ρ c (Proc.devRef .tc main_arg2) := by kept_through hostOps0_1
    _ = W0 m ρ c (Proc.devRef .tc main_arg2) := by kept_through hostOps0
    _ = m ((c : Thread nD τ).loc main_arg2) := rfl

/-! ## Between the pallas_calls -/

theorem W4_v3 (c : Dev nD) : W4 m ρ c (Proc.devRef .tc main_v3) = Cert.Spec.srcIdx (m ((c : Thread nD τ).loc main_arg1)) :=
  calc W4 m ρ c (Proc.devRef .tc main_v3)
    _ = W3 m ρ c (Proc.devRef .tc main_v3) := W4_of_ne m ρ c main_v3 (by decide)
    _ = Cert.Spec.srcIdx (m ((c : Thread nD τ).loc main_arg1)) := W3_v3 m ρ c

theorem W4_v6 (c : Dev nD) : W4 m ρ c (Proc.devRef .tc main_v6) = Cert.Spec.dstIdx (m ((c : Thread nD τ).loc main_arg1)) :=
  calc W4 m ρ c (Proc.devRef .tc main_v6)
    _ = W3 m ρ c (Proc.devRef .tc main_v6) := W4_of_ne m ρ c main_v6 (by decide)
    _ = Cert.Spec.dstIdx (m ((c : Thread nD τ).loc main_arg1)) := W3_v6 m ρ c

theorem W4_v31 (c : Dev nD) : W4 m ρ c (Proc.devRef .tc main_v31) = Cert.Spec.norm (Cert.Spec.srcIdx (m ((c : Thread nD τ).loc main_arg1))) (Cert.Spec.dstIdx (m ((c : Thread nD τ).loc main_arg1))) :=
  calc W4 m ρ c (Proc.devRef .tc main_v31)
    _ = W3 m ρ c (Proc.devRef .tc main_v31) := W4_of_ne m ρ c main_v31 (by decide)
    _ = Cert.Spec.norm (Cert.Spec.srcIdx (m ((c : Thread nD τ).loc main_arg1))) (Cert.Spec.dstIdx (m ((c : Thread nD τ).loc main_arg1))) := W3_v31 m ρ c

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by kept_through hostOps0_2
    _ = W1 m ρ c (Proc.devRef .tc main_arg3) := by kept_through hostOps0_1
    _ = W0 m ρ c (Proc.devRef .tc main_arg3) := by kept_through hostOps0
    _ = m ((c : Thread nD τ).loc main_arg3) := rfl

/-- The first aggregation, of whatever array `h` the first pallas_call left. -/
theorem W5_v45 (c : Dev nD) (h : Vec F S100000x64 .f32) (e32 : W4 m ρ c (Proc.devRef .tc main_v32) = h) : W5 m ρ c (Proc.devRef .tc main_v45) = Cert.Spec.agg (m ((c : Thread nD τ).loc main_arg1)) h := by
  show StableHlo.after hostOps1 (W4 m ρ c) (Proc.devRef .tc main_v45) = _
  have e3 := W4_v3 m ρ c
  have e6 := W4_v6 m ρ c
  have e31 := W4_v31 m ρ c
  generalize W4 m ρ c = X at e3 e6 e31 e32 ⊢
  after_results_simp
  rw [e3, e6, e31, e32]
  rfl

theorem W5_v46 (c : Dev nD) : W5 m ρ c (Proc.devRef .tc main_v46) = Cert.Spec.row64 (m ((c : Thread nD τ).loc main_arg3)) := by
  show StableHlo.after hostOps1 (W4 m ρ c) (Proc.devRef .tc main_v46) = _
  have e := W4_arg3 m ρ c
  generalize W4 m ρ c = X at e ⊢
  after_results_simp
  rw [e]
  exact row64_eq _

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by kept_through hostOps1
    _ = W3 m ρ c (Proc.devRef .tc main_arg4) := W4_of_ne m ρ c main_arg4 (by decide)
    _ = W2 m ρ c (Proc.devRef .tc main_arg4) := by kept_through hostOps0_2
    _ = W1 m ρ c (Proc.devRef .tc main_arg4) := by kept_through hostOps0_1
    _ = W0 m ρ c (Proc.devRef .tc main_arg4) := by kept_through hostOps0
    _ = m ((c : Thread nD τ).loc main_arg4) := rfl

theorem W7_v3 (c : Dev nD) : W7 m ρ c (Proc.devRef .tc main_v3) = Cert.Spec.srcIdx (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by kept_through hostOps1
    _ = Cert.Spec.srcIdx (m ((c : Thread nD τ).loc main_arg1)) := W4_v3 m ρ c

theorem W7_v6 (c : Dev nD) : W7 m ρ c (Proc.devRef .tc main_v6) = Cert.Spec.dstIdx (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by kept_through hostOps1
    _ = Cert.Spec.dstIdx (m ((c : Thread nD τ).loc main_arg1)) := W4_v6 m ρ c

theorem W7_v31 (c : Dev nD) : W7 m ρ c (Proc.devRef .tc main_v31) = Cert.Spec.norm (Cert.Spec.srcIdx (m ((c : Thread nD τ).loc main_arg1))) (Cert.Spec.dstIdx (m ((c : Thread nD τ).loc main_arg1))) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by kept_through hostOps1
    _ = Cert.Spec.norm (Cert.Spec.srcIdx (m ((c : Thread nD τ).loc main_arg1))) (Cert.Spec.dstIdx (m ((c : Thread nD τ).loc main_arg1))) := W4_v31 m ρ c

theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by kept_through hostOps1
    _ = W3 m ρ c (Proc.devRef .tc main_arg5) := W4_of_ne m ρ c main_arg5 (by decide)
    _ = W2 m ρ c (Proc.devRef .tc main_arg5) := by kept_through hostOps0_2
    _ = W1 m ρ c (Proc.devRef .tc main_arg5) := by kept_through hostOps0_1
    _ = W0 m ρ c (Proc.devRef .tc main_arg5) := by kept_through hostOps0
    _ = m ((c : Thread nD τ).loc main_arg5) := rfl

/-- The second aggregation, of whatever array `h` the third pallas_call left. -/
theorem W8_v61 (c : Dev nD) (h : Vec F S100000x64 .f32) (e48 : W7 m ρ c (Proc.devRef .tc main_v48) = h) : W8 m ρ c (Proc.devRef .tc main_v61) = Cert.Spec.agg (m ((c : Thread nD τ).loc main_arg1)) h := by
  show StableHlo.after hostOps3 (W7 m ρ c) (Proc.devRef .tc main_v61) = _
  have e3 := W7_v3 m ρ c
  have e6 := W7_v6 m ρ c
  have e31 := W7_v31 m ρ c
  generalize W7 m ρ c = X at e3 e6 e31 e48 ⊢
  after_results_simp
  rw [e3, e6, e31, e48]
  rfl

theorem W8_v62 (c : Dev nD) : W8 m ρ c (Proc.devRef .tc main_v62) = Cert.Spec.row64 (m ((c : Thread nD τ).loc main_arg5)) := by
  show StableHlo.after hostOps3 (W7 m ρ c) (Proc.devRef .tc main_v62) = _
  have e := W7_arg5 m ρ c
  generalize W7 m ρ c = X at e ⊢
  after_results_simp
  rw [e]
  exact row64_eq _

theorem W10_v63 (c : Dev nD) : W10 m ρ c (Proc.devRef .tc main_v63) = W9 m ρ c (Proc.devRef .tc main_v63) := by kept_through hostOps4

theorem W10_arg6 (c : Dev nD) : W10 m ρ c (Proc.devRef .tc main_arg6) = m ((c : Thread nD τ).loc main_arg6) :=
  calc W10 m ρ c (Proc.devRef .tc main_arg6)
    _ = W9 m ρ c (Proc.devRef .tc main_arg6) := by kept_through hostOps4
    _ = W8 m ρ c (Proc.devRef .tc main_arg6) := W9_of_ne m ρ c main_arg6 (by decide)
    _ = W7 m ρ c (Proc.devRef .tc main_arg6) := by kept_through hostOps3
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by kept_through hostOps1
    _ = W3 m ρ c (Proc.devRef .tc main_arg6) := W4_of_ne m ρ c main_arg6 (by decide)
    _ = W2 m ρ c (Proc.devRef .tc main_arg6) := by kept_through hostOps0_2
    _ = W1 m ρ c (Proc.devRef .tc main_arg6) := by kept_through hostOps0_1
    _ = W0 m ρ c (Proc.devRef .tc main_arg6) := by kept_through hostOps0
    _ = m ((c : Thread nD τ).loc main_arg6) := rfl

theorem W9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := by kept_through hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by kept_through hostOps1
    _ = W3 m ρ c (Proc.devRef .tc main_arg7) := W4_of_ne m ρ c main_arg7 (by decide)
    _ = W2 m ρ c (Proc.devRef .tc main_arg7) := by kept_through hostOps0_2
    _ = W1 m ρ c (Proc.devRef .tc main_arg7) := by kept_through hostOps0_1
    _ = W0 m ρ c (Proc.devRef .tc main_arg7) := by kept_through hostOps0
    _ = m ((c : Thread nD τ).loc main_arg7) := rfl

theorem W10_v64 (c : Dev nD) : W10 m ρ c (Proc.devRef .tc main_v64) = Cert.Spec.row16 (m ((c : Thread nD τ).loc main_arg7)) := by
  show StableHlo.after hostOps4 (W9 m ρ c) (Proc.devRef .tc main_v64) = _
  have e := W9_arg7 m ρ c
  generalize W9 m ρ c = X at e ⊢
  after_results_simp
  rw [e]
  exact row16_eq _

end Cert.KernelIdeal.Host

end
-- ==== Proof.KLinDot.lean ====
/-
  The 64-term row-by-column sum behind both dense maps, read at an index: the reference's product of the whole
  100000×64 array with a 64×64 matrix, and the kernel's product of one 5000×64 block with the same matrix, are each,
  at row r and column j, the sum over k of (r,k)-entry times (k,j)-entry.
-/
import proofs.«417706_j31241592111373_4_alg».proof.Proof.Spec
import proofs.«417706_j31241592111373_4_alg».proof.Proof.Gen.KernelIdeal
import Idealize.ShloMosaic.Lib.ValueIdx
import Idealize.ShloMosaic.PureOps.Ideal.Laws

noncomputable section

namespace Cert.KernelIdeal.LinDot

open Idealize.ShloMosaic Idealize.ShloMosaic.ValueIdx

/-! ## The reference's product: the operand indices, axis by axis -/

theorem lhs_ref_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhs_ref_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhs_ref_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhs_ref_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The whole-array dense map at row `i 0`, column `i 1`: the sum over `k` of `X (i 0, k) * W (k, i 1)`. -/
theorem lin_apply (X : Vec Ideal Cert.ReferenceIdeal.S100000x64 .f32) (W : Vec Ideal Cert.ReferenceIdeal.S64x64 .f32) (i : Cert.ReferenceIdeal.S100000x64.Idx) :
    Cert.Spec.lin (F := Ideal) X W i = ∑ k : Fin 64, X (ix2 (i 0) k) * W (ix2 k (i 1)) := by
  unfold Cert.Spec.lin
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = ix2 (i 0) k := funext fun a => Fin.ext (by
    match a with
    | ⟨0, _⟩ => exact lhs_ref_0 _ _
    | ⟨1, _⟩ => exact (lhs_ref_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = ix2 k (i 1) := funext fun a => Fin.ext (by
    match a with
    | ⟨0, _⟩ => exact (rhs_ref_0 _ _).trans hk
    | ⟨1, _⟩ => exact rhs_ref_1 _ _)
  rw [el, er] <;> rfl

/-! ## The kernel's block product: the operand indices, axis by axis -/

theorem lhs_blk_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_blk_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_blk_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_blk_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- One block's product from a zero accumulator at row `j 0`, column `j 1`: the sum over `k` of `x (j 0, k) * w (k, j 1)`. -/
theorem blk_matmul_apply (x : Vec Ideal S5000x64 .f32) (w : Vec Ideal S64x64 .f32) (j : S5000x64.Idx) :
    matmul (F := Ideal) (φ₁ := .f32) (φ₂ := .f32) dot_S5000x64_S64x64_S5000x64_1_0_0_1_n_n none x w (constant (F := Ideal) S5000x64 .f32 0x00000000#32) j
      = ∑ k : Fin 64, x (ix2 (j 0) k) * w (ix2 k (j 1)) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = ix2 (j 0) k := funext fun a => Fin.ext (by
    match a with
    | ⟨0, _⟩ => exact lhs_blk_0 _ _
    | ⟨1, _⟩ => exact (lhs_blk_1 _ _).trans hk)
  have er : dot_S5000x64_S64x64_S5000x64_1_0_0_1_n_n.rhsIdx j ((ValueIdx.contrEquiv1 dot_S5000x64_S64x64_S5000x64_1_0_0_1_n_n 64 rfl rfl).symm k) = ix2 k (j 1) := funext fun a => Fin.ext (by
    match a with
    | ⟨0, _⟩ => exact (rhs_blk_0 _ _).trans hk
    | ⟨1, _⟩ => exact rhs_blk_1 _ _)
  rw [el, er] <;> rfl

end Cert.KernelIdeal.LinDot

end
-- ==== Proof.KLin0.lean ====
/-
  The first dense map's pallas_call: after its twenty grid points the output array holds every row of the input array times the weight matrix.
-/
import proofs.«417706_j31241592111373_4_alg».proof.Proof.Gen.KernelIdeal.Frame
import proofs.«417706_j31241592111373_4_alg».proof.Proof.Spec
import proofs.«417706_j31241592111373_4_alg».proof.Proof.KLinDot
import Idealize.ShloMosaic.Lib.Pipeline.Value
import Idealize.ShloMosaic.Lib.ValueIdx
import Idealize.ShloMosaic.PureOps.Ideal.Laws

set_option maxRecDepth 16384

noncomputable section

namespace Cert.KernelIdeal.Lin0

open Idealize.ShloMosaic Idealize.ShloMosaic.TcCoe Idealize.SL.Sem
open Idealize.ShloMosaic.Pipeline (Dat)
open Idealize.ShloMosaic.ValueIdx
open Cert.KernelIdeal Cert.KernelIdeal.Gen

theorem zero_offsets : (![0, 0] : Fin 2 → Nat) = fun _ => 0 := funext fun a => by fin_cases a <;> rfl

/-- What the body stores, at row `j 0` and column `j 1` of the block: the sum over `k` of the row block's `(j 0, k)`
    entry times the matrix's `(k, j 1)` entry. -/
theorem pay_apply (x : Vec Ideal S5000x64 .f32) (w : Vec Ideal S64x64 .f32) (j : S5000x64.Idx) :
    k0_pay1 (F := Ideal) x w j = ∑ k : Fin 64, x (ix2 (j 0) k) * w (ix2 k (j 1)) := by
  unfold k0_pay1
  exact LinDot.blk_matmul_apply x w j

/-- One stored block against the whole-array map: if the row block `x` is rows `5000 t …` of `X` and `w` is `W`, then
    the stored value at `j` is the dense map of `X` and `W` at row `5000 t + j 0`, column `j 1`. -/
theorem pay_eq_lin (t : Nat) (X : Vec Ideal Cert.ReferenceIdeal.S100000x64 .f32) (W : Vec Ideal Cert.ReferenceIdeal.S64x64 .f32)
    (x : Vec Ideal S5000x64 .f32) (w : Vec Ideal S64x64 .f32)
    (hx : ∀ (y : S5000x64.Idx) (i : S100000x64.Idx), (i 0).val = t * 5000 + (y 0).val → (i 1).val = (y 1).val → x y = X i)
    (hw : ∀ y : S64x64.Idx, w y = W y)
    (j : S5000x64.Idx) (i : S100000x64.Idx) (h0 : (i 0).val = t * 5000 + (j 0).val) (h1 : (i 1).val = (j 1).val) :
    k0_pay1 (F := Ideal) x w j = Cert.Spec.lin (F := Ideal) X W i := by
  rw [pay_apply, LinDot.lin_apply]
  refine Finset.sum_congr rfl fun k _ => ?_
  rw [hx (ix2 (j 0) k) (ix2 (i 0) k) h0 rfl, hw (ix2 k (j 1))]
  have e : (ix2 k (j 1) : S64x64.Idx) = ix2 k (i 1) := by
    funext a; apply Fin.ext
    match a with
    | ⟨0, _⟩ => rfl
    | ⟨1, _⟩ => exact h1.symm
  rw [e] <;> rfl

/-- The printed index maps, decided over the twenty grid points: the row window and the output window are at block
    `(t, 0)`, the matrix window at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The row window's block at point `t` is rows `5000 t … 5000 t + 4999` of the input array. -/
theorem iblk_rows (c : Dev nD) (t : Fin cfg0.N) (y : S5000x64.Idx) (i : S100000x64.Idx)
    (h0 : (i 0).val = t.val * 5000 + (y 0).val) (h1 : (i 1).val = (y 1).val) :
    (iblk0 (F := Ideal) V c 0 t : Vec Ideal S5000x64 .f32) y = (V c main_arg0 : S100000x64.Idx → Elt Ideal .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 64 + 1 * (y 1).val = (i 1).val; rw [e1, h1]; omega

/-- The matrix window's block at every point is the whole matrix. -/
theorem iblk_matrix (c : Dev nD) (t : Fin cfg0.N) (y : S64x64.Idx) :
    (iblk0 (F := Ideal) V c 1 t : Vec Ideal S64x64 .f32) y = (V c main_arg2 : S64x64.Idx → Elt Ideal .f32) y := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 64 + 1 * (y 0).val = (y 0).val; rw [e2]; omega
  | ⟨1, _⟩ => show win0_1.index t (1 : Fin 2) * 64 + 1 * (y 1).val = (y 1).val; rw [e3]; omega

/-- What point `t` writes back is block `t` of the dense map of the input array and the matrix. -/
theorem flushed_eq (c : Dev nD) (t : Fin cfg0.N) :
    (dat0 (F := Ideal) V c).flushed 2 t
      = ((cfg0.win 2).blk t).view.read (Elt Ideal) (Cert.Spec.lin (F := Ideal) (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x64) zero_offsets, View.ld_unit_zero (S := S64x64) zero_offsets]
  obtain ⟨-, -, -, -, e4, e5⟩ := idx_facts t
  funext j
  rw [View.read_apply]
  refine pay_eq_lin t.val (V c main_arg0) (V c main_arg2) (iblk0 (F := Ideal) V c 0 t) (iblk0 (F := Ideal) V c 1 t)
    (fun y i h0 h1 => iblk_rows V c t y i h0 h1) (fun y => iblk_matrix V c t y) j (((cfg0.win 2).blk t).view.emb j) ?_ ?_
  · show win0_2.index t (0 : Fin 2) * 5000 + 1 * (j 0).val = t.val * 5000 + (j 0).val
    rw [e4]; omega
  · show win0_2.index t (1 : Fin 2) * 64 + 1 * (j 1).val = (j 1).val
    rw [e5]; omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row `r` of the output array is written back by the point `r / 5000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

theorem final (c : Dev nD) :
    (dat0 (F := Ideal) V c).arrAt 2 cfg0.N = Cert.Spec.lin (F := Ideal) (V c main_arg0) (V c main_arg2) :=
  (dat0 (F := Ideal) V c).arrAt_eq_of_cover 2 (Cert.Spec.lin (F := Ideal) (V c main_arg0) (V c main_arg2))
    (fun t _ => flushed_eq V c t) cover

end Cert.KernelIdeal.Lin0

end
-- ==== Proof.KLin2.lean ====
/-
  The second dense map's pallas_call: after its twenty grid points the output array holds every row of the input array times the weight matrix.
-/
import proofs.«417706_j31241592111373_4_alg».proof.Proof.Gen.KernelIdeal.Frame
import proofs.«417706_j31241592111373_4_alg».proof.Proof.Spec
import proofs.«417706_j31241592111373_4_alg».proof.Proof.KLinDot
import Idealize.ShloMosaic.Lib.Pipeline.Value
import Idealize.ShloMosaic.Lib.ValueIdx
import Idealize.ShloMosaic.PureOps.Ideal.Laws

set_option maxRecDepth 16384

noncomputable section

namespace Cert.KernelIdeal.Lin2

open Idealize.ShloMosaic Idealize.ShloMosaic.TcCoe Idealize.SL.Sem
open Idealize.ShloMosaic.Pipeline (Dat)
open Idealize.ShloMosaic.ValueIdx
open Cert.KernelIdeal Cert.KernelIdeal.Gen

theorem zero_offsets : (![0, 0] : Fin 2 → Nat) = fun _ => 0 := funext fun a => by fin_cases a <;> rfl

/-- What the body stores, at row `j 0` and column `j 1` of the block: the sum over `k` of the row block's `(j 0, k)`
    entry times the matrix's `(k, j 1)` entry. -/
theorem pay_apply (x : Vec Ideal S5000x64 .f32) (w : Vec Ideal S64x64 .f32) (j : S5000x64.Idx) :
    k2_pay1 (F := Ideal) x w j = ∑ k : Fin 64, x (ix2 (j 0) k) * w (ix2 k (j 1)) := by
  unfold k2_pay1
  simp only [shapeCast_self]
  exact LinDot.blk_matmul_apply x w j

/-- One stored block against the whole-array map: if the row block `x` is rows `5000 t …` of `X` and `w` is `W`, then
    the stored value at `j` is the dense map of `X` and `W` at row `5000 t + j 0`, column `j 1`. -/
theorem pay_eq_lin (t : Nat) (X : Vec Ideal Cert.ReferenceIdeal.S100000x64 .f32) (W : Vec Ideal Cert.ReferenceIdeal.S64x64 .f32)
    (x : Vec Ideal S5000x64 .f32) (w : Vec Ideal S64x64 .f32)
    (hx : ∀ (y : S5000x64.Idx) (i : S100000x64.Idx), (i 0).val = t * 5000 + (y 0).val → (i 1).val = (y 1).val → x y = X i)
    (hw : ∀ y : S64x64.Idx, w y = W y)
    (j : S5000x64.Idx) (i : S100000x64.Idx) (h0 : (i 0).val = t * 5000 + (j 0).val) (h1 : (i 1).val = (j 1).val) :
    k2_pay1 (F := Ideal) x w j = Cert.Spec.lin (F := Ideal) X W i := by
  rw [pay_apply, LinDot.lin_apply]
  refine Finset.sum_congr rfl fun k _ => ?_
  rw [hx (ix2 (j 0) k) (ix2 (i 0) k) h0 rfl, hw (ix2 k (j 1))]
  have e : (ix2 k (j 1) : S64x64.Idx) = ix2 k (i 1) := by
    funext a; apply Fin.ext
    match a with
    | ⟨0, _⟩ => rfl
    | ⟨1, _⟩ => exact h1.symm
  rw [e] <;> rfl

/-- The printed index maps, decided over the twenty grid points: the row window and the output window are at block
    `(t, 0)`, the matrix window at block `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The row window's block at point `t` is rows `5000 t … 5000 t + 4999` of the input array. -/
theorem iblk_rows (c : Dev nD) (t : Fin cfg2.N) (y : S5000x64.Idx) (i : S100000x64.Idx)
    (h0 : (i 0).val = t.val * 5000 + (y 0).val) (h1 : (i 1).val = (y 1).val) :
    (iblk2 (F := Ideal) V c 0 t : Vec Ideal S5000x64 .f32) y = (V c main_v47 : S100000x64.Idx → Elt Ideal .f32) i := by
  obtain ⟨e0, e1, -⟩ := idx_facts t
  unfold iblk2
  rw [View.read_apply]
  show V c main_v47 _ = V c main_v47 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 64 + 1 * (y 1).val = (i 1).val; rw [e1, h1]; omega

/-- The matrix window's block at every point is the whole matrix. -/
theorem iblk_matrix (c : Dev nD) (t : Fin cfg2.N) (y : S64x64.Idx) :
    (iblk2 (F := Ideal) V c 1 t : Vec Ideal S64x64 .f32) y = (V c main_arg4 : S64x64.Idx → Elt Ideal .f32) y := by
  obtain ⟨-, -, e2, e3, -⟩ := idx_facts t
  unfold iblk2
  rw [View.read_apply]
  show V c main_arg4 _ = V c main_arg4 _
  congr 1
  funext a
  apply Fin.ext
  match a with
  | ⟨0, _⟩ => show win2_1.index t (0 : Fin 2) * 64 + 1 * (y 0).val = (y 0).val; rw [e2]; omega
  | ⟨1, _⟩ => show win2_1.index t (1 : Fin 2) * 64 + 1 * (y 1).val = (y 1).val; rw [e3]; omega

/-- What point `t` writes back is block `t` of the dense map of the input array and the matrix. -/
theorem flushed_eq (c : Dev nD) (t : Fin cfg2.N) :
    (dat2 (F := Ideal) V c).flushed 2 t
      = ((cfg2.win 2).blk t).view.read (Elt Ideal) (Cert.Spec.lin (F := Ideal) (V c main_v47) (V c main_arg4)) := by
  show (cfg2.win 2).cut (grid2.coords t) ((dat2 (F := Ideal) V c).after 2 t) = _
  rw [after2_2]
  unfold out2_2
  rw [View.canon_unit_zero zero_offsets]
  simp only [View.ld_unit_zero (S := S5000x64) zero_offsets, View.ld_unit_zero (S := S64x64) zero_offsets]
  obtain ⟨-, -, -, -, e4, e5⟩ := idx_facts t
  funext j
  rw [View.read_apply]
  refine pay_eq_lin t.val (V c main_v47) (V c main_arg4) (iblk2 (F := Ideal) V c 0 t) (iblk2 (F := Ideal) V c 1 t)
    (fun y i h0 h1 => iblk_rows V c t y i h0 h1) (fun y => iblk_matrix V c t y) j (((cfg2.win 2).blk t).view.emb j) ?_ ?_
  · show win2_2.index t (0 : Fin 2) * 5000 + 1 * (j 0).val = t.val * 5000 + (j 0).val
    rw [e4]; omega
  · show win2_2.index t (1 : Fin 2) * 64 + 1 * (j 1).val = (j 1).val
    rw [e5]; omega

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- Row `r` of the output array is written back by the point `r / 5000`. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

theorem final (c : Dev nD) :
    (dat2 (F := Ideal) V c).arrAt 2 cfg2.N = Cert.Spec.lin (F := Ideal) (V c main_v47) (V c main_arg4) :=
  (dat2 (F := Ideal) V c).arrAt_eq_of_cover 2 (Cert.Spec.lin (F := Ideal) (V c main_v47) (V c main_arg4))
    (fun t _ => flushed_eq V c t) cover

end Cert.KernelIdeal.Lin2

end
-- ==== Proof.KBias1.lean ====
/-
  The first bias-and-max-with-zero pallas_call: after its twenty grid points the output array holds the input array plus the bias row, cut below at zero.
-/
import proofs.«417706_j31241592111373_4_alg».proof.Proof.Gen.KernelIdeal.Frame
import proofs.«417706_j31241592111373_4_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Bias1

open Idealize.ShloMosaic Idealize.ShloMosaic.TcCoe Idealize.SL.Sem
open Idealize.ShloMosaic.Pipeline (Dat)
open Cert.KernelIdeal Cert.KernelIdeal.Gen
open Idealize.ShloMosaic.ValueIdx

variable (V : (c : Dev nD) → (b : Ref sig .tc) → Buf (Elt Ideal) ((c : Thread nD τ).loc b))

/-- The stored payload at an index: the block entry plus the bias row's entry in that column, cut below at zero. -/
theorem pay_apply (x0 : Vec Ideal S5000x64 .f32) (x1 : Vec Ideal S1x64 .f32) (p : Fin 5000) (q : Fin 64) :
    k1_pay1 (F := Ideal) x0 x1 (ix2 p q) = max (x0 (ix2 p q) + x1 (ix2 0 q)) (Ideal.ofBits .f32 0x00000000#32) := by
  unfold k1_pay1
  rw [shapeCast_self, shapeCast_self]
  rw [maximumf_apply, addf_apply, broadcast_apply]
  rw [broadcastTo_apply x1 broadcasts_S1x64_S5000x64 (ix2 p q) (ix2 0 q) ?_]
  · rfl
  · intro a
    match a with
    | ⟨0, _⟩ => rfl
    | ⟨1, _⟩ => rfl

/-- The whole-array function at an index: the same expression over the arrays. -/
theorem spec_apply (A : Vec Ideal Cert.ReferenceIdeal.S100000x64 .f32) (B : Vec Ideal Cert.ReferenceIdeal.S1x64 .f32) (r : Fin 100000) (q : Fin 64) :
    Cert.Spec.biasRelu (F := Ideal) A B (ix2 r q) = max (A (ix2 r q) + B (ix2 0 q)) (Ideal.ofBits .f32 0x00000000#32) := by
  unfold Cert.Spec.biasRelu
  rw [maximumf_apply, addf_apply]
  rw [broadcastInDim_apply ![0, 1] Cert.ReferenceIdeal.Gen.bcast_S1x64_S100000x64_0_1 B (ix2 r q) (ix2 0 q) ?_,
    broadcastInDim_apply ![] Cert.ReferenceIdeal.Gen.bcast_S_S100000x64 _ (ix2 r q) ix0 ?_, constant_apply]
  · intro a; exact a.elim0
  · intro a
    match a with
    | ⟨0, _⟩ => rfl
    | ⟨1, _⟩ => rfl

/-- One entry of a block against one entry of the array: when the block entry is the array's entry at `i` and the
    bias operand's entry in column `j 1` is the bias row's entry in column `i 1`, the payload at `j` is the
    whole-array function at `i`. -/
theorem point_eq (A : Vec Ideal Cert.ReferenceIdeal.S100000x64 .f32) (B : Vec Ideal Cert.ReferenceIdeal.S1x64 .f32)
    (x0 : Vec Ideal S5000x64 .f32) (x1 : Vec Ideal S1x64 .f32) (j : S5000x64.Idx) (i : Cert.ReferenceIdeal.S100000x64.Idx)
    (h0 : x0 j = A i) (h1 : x1 (ix2 0 (j 1)) = B (ix2 0 (i 1))) :
    k1_pay1 (F := Ideal) x0 x1 j = Cert.Spec.biasRelu (F := Ideal) A B i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  have h1' : x1 (ix2 0 q) = B (ix2 0 q') := h1
  rw [pay_apply, spec_apply, h0, h1']

/-- The zero offsets of a whole-buffer access, as the constant function. -/
theorem hz : (![0, 0] : Fin 2 → Nat) = fun _ => 0 := funext fun a => by fin_cases a <;> rfl

/-- The block indices of the three windows at every grid point: the row windows sit at block `(t, 0)`, the bias row at `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the arrays as the region finds them. -/
theorem flushed_eq (c : Dev nD) (t : Fin cfg1.N) :
    (dat1 (F := Ideal) V c).flushed 2 t
      = ((cfg1.win 2).blk t).view.read (Elt Ideal) (Cert.Spec.biasRelu (F := Ideal) (V c main_v45) (V c main_v46)) := by
  show (cfg1.win 2).cut (grid1.coords t) ((dat1 (F := Ideal) V c).after 2 t) = _
  rw [after1_2]
  unfold out1_2
  rw [View.canon_unit_zero hz]
  simp only [View.ld_unit_zero (S := S5000x64) hz, View.ld_unit_zero (S := S1x64) hz]
  obtain ⟨e00, e01, e10, e11, e20, e21⟩ := idx_facts t
  funext j
  show k1_pay1 (F := Ideal) (iblk1 V c 0 t) (iblk1 V c 1 t) j
    = Cert.Spec.biasRelu (F := Ideal) (V c main_v45) (V c main_v46) (((cfg1.win 2).blk t).view.emb j)
  refine point_eq _ _ _ _ j _ ?_ ?_
  · show V c main_v45 (((cfg1.win 0).blk t).view.emb j) = V c main_v45 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  · show V c main_v46 (((cfg1.win 1).blk t).view.emb (ix2 0 (j 1))) = V c main_v46 (ix2 0 ((((cfg1.win 2).blk t).view.emb j) 1))
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega

/-- An index of the array is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Every index of the array is in the block of the point its row falls in: row `r` in block `r / 5000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have hlt : (i 0).val / 5000 < cfg1.N := by rw [hN]; omega
  refine ⟨⟨(i 0).val / 5000, hlt⟩, flush1_2 _, ?_⟩
  rw [mem_blk]
  obtain ⟨-, -, -, -, e20, e21⟩ := idx_facts ⟨(i 0).val / 5000, hlt⟩
  have e20' : win1_2.index ⟨(i 0).val / 5000, hlt⟩ (0 : Fin 2) = (i 0).val / 5000 := e20
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    omega
  | ⟨1, _⟩ =>
    show win1_2.index ⟨(i 0).val / 5000, hlt⟩ (1 : Fin 2) * 64 ≤ (i 1).val ∧ (i 1).val < win1_2.index ⟨(i 0).val / 5000, hlt⟩ (1 : Fin 2) * 64 + 64
    omega

theorem final (c : Dev nD) :
    (dat1 (F := Ideal) V c).arrAt 2 cfg1.N = Cert.Spec.biasRelu (F := Ideal) (V c main_v45) (V c main_v46) := by
  exact (dat1 (F := Ideal) V c).arrAt_eq_of_cover 2 _ (fun t _ => flushed_eq V c t) cover

end Cert.KernelIdeal.Bias1

end
-- ==== Proof.KBias3.lean ====
/-
  The second bias-and-max-with-zero pallas_call: after its twenty grid points the output array holds the input array plus the bias row, cut below at zero.
-/
import proofs.«417706_j31241592111373_4_alg».proof.Proof.Gen.KernelIdeal.Frame
import proofs.«417706_j31241592111373_4_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Bias3

open Idealize.ShloMosaic Idealize.ShloMosaic.TcCoe Idealize.SL.Sem
open Idealize.ShloMosaic.Pipeline (Dat)
open Cert.KernelIdeal Cert.KernelIdeal.Gen
open Idealize.ShloMosaic.ValueIdx

variable (V : (c : Dev nD) → (b : Ref sig .tc) → Buf (Elt Ideal) ((c : Thread nD τ).loc b))

/-- The stored payload at an index: the block entry plus the bias row's entry in that column, cut below at zero. -/
theorem pay_apply (x0 : Vec Ideal S5000x64 .f32) (x1 : Vec Ideal S1x64 .f32) (p : Fin 5000) (q : Fin 64) :
    k3_pay1 (F := Ideal) x0 x1 (ix2 p q) = max (x0 (ix2 p q) + x1 (ix2 0 q)) (Ideal.ofBits .f32 0x00000000#32) := by
  unfold k3_pay1
  rw [shapeCast_self, shapeCast_self]
  rw [maximumf_apply, addf_apply, broadcast_apply]
  rw [broadcastTo_apply x1 broadcasts_S1x64_S5000x64 (ix2 p q) (ix2 0 q) ?_]
  · rfl
  · intro a
    match a with
    | ⟨0, _⟩ => rfl
    | ⟨1, _⟩ => rfl

/-- The whole-array function at an index: the same expression over the arrays. -/
theorem spec_apply (A : Vec Ideal Cert.ReferenceIdeal.S100000x64 .f32) (B : Vec Ideal Cert.ReferenceIdeal.S1x64 .f32) (r : Fin 100000) (q : Fin 64) :
    Cert.Spec.biasRelu (F := Ideal) A B (ix2 r q) = max (A (ix2 r q) + B (ix2 0 q)) (Ideal.ofBits .f32 0x00000000#32) := by
  unfold Cert.Spec.biasRelu
  rw [maximumf_apply, addf_apply]
  rw [broadcastInDim_apply ![0, 1] Cert.ReferenceIdeal.Gen.bcast_S1x64_S100000x64_0_1 B (ix2 r q) (ix2 0 q) ?_,
    broadcastInDim_apply ![] Cert.ReferenceIdeal.Gen.bcast_S_S100000x64 _ (ix2 r q) ix0 ?_, constant_apply]
  · intro a; exact a.elim0
  · intro a
    match a with
    | ⟨0, _⟩ => rfl
    | ⟨1, _⟩ => rfl

/-- One entry of a block against one entry of the array: when the block entry is the array's entry at `i` and the
    bias operand's entry in column `j 1` is the bias row's entry in column `i 1`, the payload at `j` is the
    whole-array function at `i`. -/
theorem point_eq (A : Vec Ideal Cert.ReferenceIdeal.S100000x64 .f32) (B : Vec Ideal Cert.ReferenceIdeal.S1x64 .f32)
    (x0 : Vec Ideal S5000x64 .f32) (x1 : Vec Ideal S1x64 .f32) (j : S5000x64.Idx) (i : Cert.ReferenceIdeal.S100000x64.Idx)
    (h0 : x0 j = A i) (h1 : x1 (ix2 0 (j 1)) = B (ix2 0 (i 1))) :
    k3_pay1 (F := Ideal) x0 x1 j = Cert.Spec.biasRelu (F := Ideal) A B i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  have h1' : x1 (ix2 0 q) = B (ix2 0 q') := h1
  rw [pay_apply, spec_apply, h0, h1']

/-- The zero offsets of a whole-buffer access, as the constant function. -/
theorem hz : (![0, 0] : Fin 2 → Nat) = fun _ => 0 := funext fun a => by fin_cases a <;> rfl

/-- The block indices of the three windows at every grid point: the row windows sit at block `(t, 0)`, the bias row at `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function of the arrays as the region finds them. -/
theorem flushed_eq (c : Dev nD) (t : Fin cfg3.N) :
    (dat3 (F := Ideal) V c).flushed 2 t
      = ((cfg3.win 2).blk t).view.read (Elt Ideal) (Cert.Spec.biasRelu (F := Ideal) (V c main_v61) (V c main_v62)) := by
  show (cfg3.win 2).cut (grid3.coords t) ((dat3 (F := Ideal) V c).after 2 t) = _
  rw [after3_2]
  unfold out3_2
  rw [View.canon_unit_zero hz]
  simp only [View.ld_unit_zero (S := S5000x64) hz, View.ld_unit_zero (S := S1x64) hz]
  obtain ⟨e00, e01, e10, e11, e20, e21⟩ := idx_facts t
  funext j
  show k3_pay1 (F := Ideal) (iblk3 V c 0 t) (iblk3 V c 1 t) j
    = Cert.Spec.biasRelu (F := Ideal) (V c main_v61) (V c main_v62) (((cfg3.win 2).blk t).view.emb j)
  refine point_eq _ _ _ _ j _ ?_ ?_
  · show V c main_v61 (((cfg3.win 0).blk t).view.emb j) = V c main_v61 (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  · show V c main_v62 (((cfg3.win 1).blk t).view.emb (ix2 0 (j 1))) = V c main_v62 (ix2 0 ((((cfg3.win 2).blk t).view.emb j) 1))
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- Every index of the array is in the block of the point its row falls in: row `r` in block `r / 5000`. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  have hlt : (i 0).val / 5000 < cfg3.N := by rw [hN]; omega
  refine ⟨⟨(i 0).val / 5000, hlt⟩, flush3_2 _, ?_⟩
  rw [mem_blk]
  obtain ⟨-, -, -, -, e20, e21⟩ := idx_facts ⟨(i 0).val / 5000, hlt⟩
  have e20' : win3_2.index ⟨(i 0).val / 5000, hlt⟩ (0 : Fin 2) = (i 0).val / 5000 := e20
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    omega
  | ⟨1, _⟩ =>
    show win3_2.index ⟨(i 0).val / 5000, hlt⟩ (1 : Fin 2) * 64 ≤ (i 1).val ∧ (i 1).val < win3_2.index ⟨(i 0).val / 5000, hlt⟩ (1 : Fin 2) * 64 + 64
    omega

theorem final (c : Dev nD) :
    (dat3 (F := Ideal) V c).arrAt 2 cfg3.N = Cert.Spec.biasRelu (F := Ideal) (V c main_v61) (V c main_v62) := by
  exact (dat3 (F := Ideal) V c).arrAt_eq_of_cover 2 _ (fun t _ => flushed_eq V c t) cover

end Cert.KernelIdeal.Bias3

end
-- ==== Proof.KFc4.lean ====
/-
  The last pallas_call (dense layer, bias, row-wise log-softmax): after its twenty grid points the output array holds the log-softmax of the logits of every row.
-/
import proofs.«417706_j31241592111373_4_alg».proof.Proof.Gen.KernelIdeal.Frame
import proofs.«417706_j31241592111373_4_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Fc4

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-! ## The two products at an index -/

theorem lhs_kernel_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem lhs_kernel_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem rhs_kernel_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem rhs_kernel_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The kernel's product into the zero splat, at row `p` and column `j` of the block: the sum over the 64 contracted positions. -/
theorem kernel_matmul_apply (x : FVec Ideal S5000x64 .f32) (w : FVec Ideal S64x16 .f32) (p : Fin 5000) (j : Fin 16) :
    matmul (F := Ideal) dot_S5000x64_S64x16_S5000x16_1_0_0_1_n_n none x w (constant (F := Ideal) S5000x16 .f32 0x00000000#32) (ix2 p j)
      = ∑ k : Fin 64, x (ix2 p k) * w (ix2 k j) := by
  simp only [matmul]
  rw [Ideal.matmul_constant_zero_apply, ← Equiv.sum_comp (ValueIdx.contrEquiv1 dot_S5000x64_S64x16_S5000x16_1_0_0_1_n_n 64 rfl rfl).symm]
  refine Finset.sum_congr rfl fun k _ => ?_
  have hk := ValueIdx.contrEquiv1_symm_val dot_S5000x64_S64x16_S5000x16_1_0_0_1_n_n 64 rfl rfl k
  have el : dot_S5000x64_S64x16_S5000x16_1_0_0_1_n_n.lhsIdx (ix2 p j) ((ValueIdx.contrEquiv1 dot_S5000x64_S64x16_S5000x16_1_0_0_1_n_n 64 rfl rfl).symm k) = ix2 p k := funext fun a => Fin.ext (by
    match a with
    | ⟨0, _⟩ => exact lhs_kernel_0 _ _
    | ⟨1, _⟩ => exact (lhs_kernel_1 _ _).trans hk)
  have er : dot_S5000x64_S64x16_S5000x16_1_0_0_1_n_n.rhsIdx (ix2 p j) ((ValueIdx.contrEquiv1 dot_S5000x64_S64x16_S5000x16_1_0_0_1_n_n 64 rfl rfl).symm k) = ix2 k j := funext fun a => Fin.ext (by
    match a with
    | ⟨0, _⟩ => exact (rhs_kernel_0 _ _).trans hk
    | ⟨1, _⟩ => exact rhs_kernel_1 _ _)
  rw [el, er]

theorem lhs_host_0 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x16_S100000x16_1_0_0_1_n_n.lhsBatch by decide), dif_pos (show (0 : Fin Cert.ReferenceIdeal.S100000x64.rank) ∈ Cert.ReferenceIdeal.dot_S100000x64_S64x16_S100000x16_1_0_0_1_n_n.lhsNonContracting by decide)]
  rfl
theorem lhs_host_1 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.lhsIdx i q 1).val = (q ⟨0, by decide⟩).val :=
  Cert.ReferenceIdeal.dot_S100000x64_S64x16_S100000x16_1_0_0_1_n_n.lhsIdx_val_of_single rfl i q
theorem rhs_host_0 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.rhsIdx i q 0).val = (q ⟨0, by decide⟩).val :=
  Cert.ReferenceIdeal.dot_S100000x64_S64x16_S100000x16_1_0_0_1_n_n.rhsIdx_val_of_single rfl i q
theorem rhs_host_1 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.rhsIdx i q 1).val = (i 1).val := by
  unfold DotDims.rhsIdx
  rw [dif_neg (show ¬(1 : Fin Cert.ReferenceIdeal.S64x16.rank) ∈ Cert.ReferenceIdeal.dot_S100000x64_S64x16_S100000x16_1_0_0_1_n_n.rhsBatch by decide), dif_pos (show (1 : Fin Cert.ReferenceIdeal.S64x16.rank) ∈ Cert.ReferenceIdeal.dot_S100000x64_S64x16_S100000x16_1_0_0_1_n_n.rhsNonContracting by decide)]
  rfl

/-- The host's product at row `r` and column `j` of the array: the same sum. -/
theorem host_dot_apply (h : FVec Ideal Cert.ReferenceIdeal.S100000x64 .f32) (w : FVec Ideal Cert.ReferenceIdeal.S64x16 .f32) (r : Fin 100000) (j : Fin 16) :
    Host.dotGeneral (F := Ideal) Cert.ReferenceIdeal.dot_S100000x64_S64x16_S100000x16_1_0_0_1_n_n none h w (ix2 r j)
      = ∑ k : Fin 64, h (ix2 r k) * w (ix2 k j) := by
  simp only [Host.dotGeneral]
  rw [Ideal.dotGeneral_apply, ← Equiv.sum_comp (ValueIdx.contrEquiv1 Cert.ReferenceIdeal.dot_S100000x64_S64x16_S100000x16_1_0_0_1_n_n 64 rfl rfl).symm]
  refine Finset.sum_congr rfl fun k _ => ?_
  have hk := ValueIdx.contrEquiv1_symm_val Cert.ReferenceIdeal.dot_S100000x64_S64x16_S100000x16_1_0_0_1_n_n 64 rfl rfl k
  have el : Cert.ReferenceIdeal.dot_S100000x64_S64x16_S100000x16_1_0_0_1_n_n.lhsIdx (ix2 r j) ((ValueIdx.contrEquiv1 Cert.ReferenceIdeal.dot_S100000x64_S64x16_S100000x16_1_0_0_1_n_n 64 rfl rfl).symm k) = ix2 r k := funext fun a => Fin.ext (by
    match a with
    | ⟨0, _⟩ => exact lhs_host_0 _ _
    | ⟨1, _⟩ => exact (lhs_host_1 _ _).trans hk)
  have er : Cert.ReferenceIdeal.dot_S100000x64_S64x16_S100000x16_1_0_0_1_n_n.rhsIdx (ix2 r j) ((ValueIdx.contrEquiv1 Cert.ReferenceIdeal.dot_S100000x64_S64x16_S100000x16_1_0_0_1_n_n 64 rfl rfl).symm k) = ix2 k j := funext fun a => Fin.ext (by
    match a with
    | ⟨0, _⟩ => exact (rhs_host_0 _ _).trans hk
    | ⟨1, _⟩ => exact rhs_host_1 _ _)
  rw [el, er]

/-! ## A row's log-softmax -/

/-- −∞, as both programs spell it. -/
abbrev ninf : EReal := Ideal.ofBits .f32 0xFF800000#32

/-- The largest of sixteen logits (and −∞). -/
def rowMax (z : Fin 16 → EReal) : EReal := max ninf (Finset.univ.fold max ninf z)

/-- The log-softmax of sixteen logits: each minus the largest, minus the logarithm of the sum of the exponentials of
    those differences. -/
def rowLogSoftmax (z : Fin 16 → EReal) (j : Fin 16) : EReal :=
  (z j - rowMax z) - Ideal.log (∑ k : Fin 16, Ideal.exp (z k - rowMax z))

/-! ### The kernel's side -/

/-- The block's logits: the rows times the matrix, plus the bias row. -/
def kLogits (x : Vec Ideal S5000x64 .f32) (w : Vec Ideal S64x16 .f32) (b : Vec Ideal S1x16 .f32) : FVec Ideal S5000x16 .f32 :=
  addf (matmul (F := Ideal) (φ₁ := .f32) (φ₂ := .f32) dot_S5000x64_S64x16_S5000x16_1_0_0_1_n_n none (shapeCast S5000x64 x shapeCasts_S5000x64_S5000x64) w (constant (F := Ideal) S5000x16 .f32 0x00000000#32))
    (broadcastTo S5000x16 (shapeCast S1x16 b shapeCasts_S1x16_S1x16) broadcasts_S1x16_S5000x16)

/-- The block's entries minus their row's maximum. -/
def kShift (z : FVec Ideal S5000x16 .f32) : FVec Ideal S5000x16 .f32 :=
  subf z (broadcastTo S5000x16 (shapeCast S5000x1 (maximumf (broadcast S5000 (Scalar.ofBits (F := Ideal) .f32 0xFF800000#32))
    (multiReduction (F := Ideal) .maximumf [1] S5000 z 0xFF800000#32 reduces_S5000x16_S5000 (.inl rfl) rfl)) shapeCasts_S5000_S5000x1) broadcasts_S5000x1_S5000x16)

/-- The shifted entries minus the logarithm of their row's sum of exponentials. -/
def kTail (z : FVec Ideal S5000x16 .f32) : FVec Ideal S5000x16 .f32 :=
  subf (kShift z) (broadcastTo S5000x16 (log (shapeCast S5000x1
    (multiReduction (F := Ideal) .add [1] S5000 (exp (kShift z)) 0x00000000#32 reduces_S5000x16_S5000 (.inl rfl) rfl) shapeCasts_S5000_S5000x1)) broadcasts_S5000x1_S5000x16)

/-- The stored payload is the tail of the logits. -/
theorem pay_eq (x : Vec Ideal S5000x64 .f32) (w : Vec Ideal S64x16 .f32) (b : Vec Ideal S1x16 .f32) :
    k4_pay1 (F := Ideal) x w b = kTail (kLogits x w b) := rfl

/-- A column broadcast along the rows, read at (p, j): the column's entry of row p. -/
theorem colBroadcast_apply {α : Type} (u : S5000x1.Idx → α) (p : Fin 5000) (j : Fin 16) :
    broadcastTo S5000x16 u broadcasts_S5000x1_S5000x16 (ix2 p j) = u (ix2 p (0 : Fin 1)) :=
  broadcastTo_apply u broadcasts_S5000x1_S5000x16 (ix2 p j) (ix2 p (0 : Fin 1)) (fun a => match a with
    | ⟨0, _⟩ => by show p.val = if (5000 : Nat) = 1 then 0 else p.val; rw [if_neg (by decide)]
    | ⟨1, _⟩ => by show 0 = if (1 : Nat) = 1 then 0 else j.val; rw [if_pos rfl])

/-- A vector as a column, read at (p, 0): the vector's entry p. -/
theorem asColumn_apply {α : Type} (v : S5000.Idx → α) (p : Fin 5000) :
    shapeCast S5000x1 v shapeCasts_S5000_S5000x1 (ix2 p (0 : Fin 1)) = v (ix1 p) :=
  shapeCast_apply v shapeCasts_S5000_S5000x1 (ix2 p (0 : Fin 1)) (ix1 p) (by
    rw [Shape.rowMajor_val_one, Shape.rowMajor_val_two]
    show p.val = p.val * 1 + 0
    omega)

/-- The kernel's row maximum at row p. -/
theorem kRowMax_apply (z : FVec Ideal S5000x16 .f32) (p : Fin 5000) :
    multiReduction (F := Ideal) .maximumf [1] S5000 z 0xFF800000#32 reduces_S5000x16_S5000 (.inl rfl) rfl (ix1 p)
      = Finset.univ.fold max ninf (fun k : Fin 16 => z (ix2 p k)) := by
  refine (Ideal.multiReduction_maximumf_single z 0xFF800000#32 reduces_S5000x16_S5000 (.inl rfl) rfl (ix1 p)).trans ?_
  refine congrArg (Finset.univ.fold max ninf) (funext fun k => ?_)
  exact congrArg z (funext fun a => Fin.ext (by match a with | ⟨0, _⟩ => rfl | ⟨1, _⟩ => rfl))

/-- The kernel's row sum at row p. -/
theorem kRowSum_apply (e : FVec Ideal S5000x16 .f32) (p : Fin 5000) :
    multiReduction (F := Ideal) .add [1] S5000 e 0x00000000#32 reduces_S5000x16_S5000 (.inl rfl) rfl (ix1 p)
      = ∑ k : Fin 16, e (ix2 p k) := by
  refine (Ideal.multiReduction_add_single e 0x00000000#32 reduces_S5000x16_S5000 (.inl rfl) rfl (ix1 p)).trans ?_
  refine Finset.sum_congr rfl fun k _ => ?_
  exact congrArg e (funext fun a => Fin.ext (by match a with | ⟨0, _⟩ => rfl | ⟨1, _⟩ => rfl))

theorem kShift_apply (z : FVec Ideal S5000x16 .f32) (p : Fin 5000) (j : Fin 16) :
    kShift z (ix2 p j) = z (ix2 p j) - rowMax (fun k => z (ix2 p k)) := by
  unfold kShift
  rw [subf_apply, colBroadcast_apply, asColumn_apply, maximumf_apply, kRowMax_apply]
  rfl

theorem kTail_apply (z : FVec Ideal S5000x16 .f32) (p : Fin 5000) (j : Fin 16) :
    kTail z (ix2 p j) = rowLogSoftmax (fun k => z (ix2 p k)) j := by
  unfold kTail
  rw [subf_apply, colBroadcast_apply, kShift_apply]
  show _ - Ideal.log (shapeCast S5000x1 _ shapeCasts_S5000_S5000x1 (ix2 p (0 : Fin 1))) = _
  rw [asColumn_apply, kRowSum_apply]
  unfold rowLogSoftmax
  refine congrArg (fun s => _ - Ideal.log s) (Finset.sum_congr rfl fun k _ => ?_)
  show Ideal.exp (kShift z (ix2 p k)) = _
  rw [kShift_apply]

/-! ### The host's side -/

theorem hostReduces : Cert.ReferenceIdeal.S100000x16.Reduces [1] Cert.ReferenceIdeal.S100000 := by decide

/-- A column broadcast along the rows of the array, read at (r, j): the column's entry of row r. -/
theorem hColBroadcast_apply {α : Type} (u : Cert.ReferenceIdeal.S100000x1.Idx → α) (r : Fin 100000) (j : Fin 16) :
    broadcastInDim Cert.ReferenceIdeal.S100000x16 ![0, 1] Cert.ReferenceIdeal.Facts₀.bcast_S100000x1_S100000x16_0_1 u (ix2 r j) = u (ix2 r (0 : Fin 1)) :=
  broadcastInDim_apply _ Cert.ReferenceIdeal.Facts₀.bcast_S100000x1_S100000x16_0_1 u (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])

/-- A vector as a column of the array, read at (r, 0): the vector's entry r. -/
theorem hAsColumn_apply {α : Type} (v : Cert.ReferenceIdeal.S100000.Idx → α) (r : Fin 100000) :
    broadcastInDim Cert.ReferenceIdeal.S100000x1 ![0] Cert.ReferenceIdeal.Facts₀.bcast_S100000_S100000x1_0 v (ix2 r (0 : Fin 1)) = v (ix1 r) :=
  broadcastInDim_apply _ Cert.ReferenceIdeal.Facts₀.bcast_S100000_S100000x1_0 v (ix2 r (0 : Fin 1)) (ix1 r) (fun a => match a with
    | ⟨0, _⟩ => by show r.val = if (100000 : Nat) = 1 then 0 else r.val; rw [if_neg (by decide)])

/-- The host's row maximum at row r. -/
theorem hRowMax_apply (Z : FVec Ideal Cert.ReferenceIdeal.S100000x16 .f32) (r : Fin 100000) :
    Host.reduce FloatOps.maximumf Z (constant (F := Ideal) Cert.ReferenceIdeal.S_ .f32 0xFF800000#32)
        Cert.ReferenceIdeal.Facts₀.reducesTo_S100000x16_S100000_d1 Cert.ReferenceIdeal.Facts₀.h_S_ (ix1 r)
      = Finset.univ.fold max ninf (fun k : Fin 16 => Z (ix2 r k)) := by
  refine (Host.reduce_eq_fold_single FloatOps.maximumf Z _ Cert.ReferenceIdeal.Facts₀.reducesTo_S100000x16_S100000_d1 hostReduces
    Cert.ReferenceIdeal.Facts₀.h_S_ (ix1 r)).trans ?_
  show Finset.univ.fold max ninf (Z ∘ hostReduces.lift (ix1 r)) = _
  refine congrArg (Finset.univ.fold max ninf) (funext fun k => ?_)
  exact congrArg Z (funext fun a => Fin.ext (by match a with | ⟨0, _⟩ => rfl | ⟨1, _⟩ => rfl))

/-- The host's row sum at row r. -/
theorem hRowSum_apply (E : FVec Ideal Cert.ReferenceIdeal.S100000x16 .f32) (r : Fin 100000) :
    Host.reduceAdd (F := Ideal) E (constant (F := Ideal) Cert.ReferenceIdeal.S_ .f32 0x00000000#32)
        Cert.ReferenceIdeal.Facts₀.reducesTo_S100000x16_S100000_d1 Cert.ReferenceIdeal.Facts₀.h_S_ (ix1 r)
      = ∑ k : Fin 16, E (ix2 r k) := by
  simp only [Host.reduceAdd, Ideal.hostReduceAdd_def]
  rw [Ideal.hostReduceAdd_single Cert.ReferenceIdeal.Facts₀.reducesTo_S100000x16_S100000_d1 hostReduces]
  show Ideal.ofBits .f32 0x00000000#32 + _ = _
  rw [Ideal.ofBits_zero_f32, zero_add]
  refine Finset.sum_congr rfl fun k _ => ?_
  exact congrArg E (funext fun a => Fin.ext (by match a with | ⟨0, _⟩ => rfl | ⟨1, _⟩ => rfl))

theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

theorem shifted_apply (Z : FVec Ideal Cert.ReferenceIdeal.S100000x16 .f32) (r : Fin 100000) (j : Fin 16) :
    Cert.Spec.shifted (F := Ideal) Z (ix2 r j) = Z (ix2 r j) - rowMax (fun k => Z (ix2 r k)) := by
  unfold Cert.Spec.shifted
  rw [subf_apply, hColBroadcast_apply, hAsColumn_apply, maximumf_apply, hRowMax_apply]
  rfl

theorem logSoftmax_apply (Z : FVec Ideal Cert.ReferenceIdeal.S100000x16 .f32) (r : Fin 100000) (j : Fin 16) :
    Cert.Spec.logSoftmax (F := Ideal) Z (ix2 r j) = rowLogSoftmax (fun k => Z (ix2 r k)) j := by
  unfold Cert.Spec.logSoftmax
  rw [subf_apply, hColBroadcast_apply, shifted_apply]
  rw [hostLog_apply, hAsColumn_apply, hRowSum_apply]
  unfold rowLogSoftmax
  refine congrArg (fun s => _ - Ideal.log s) (Finset.sum_congr rfl fun k _ => ?_)
  rw [hostExp_apply, shifted_apply]

/-! ## The logits at an index -/

theorem kLogits_apply (x : Vec Ideal S5000x64 .f32) (w : Vec Ideal S64x16 .f32) (b : Vec Ideal S1x16 .f32) (p : Fin 5000) (j : Fin 16) :
    kLogits x w b (ix2 p j) = (∑ k : Fin 64, x (ix2 p k) * w (ix2 k j)) + b (ix2 (0 : Fin 1) j) := by
  unfold kLogits
  rw [addf_apply, shapeCast_self, shapeCast_self, kernel_matmul_apply]
  refine congrArg (_ + ·) ?_
  exact broadcastTo_apply b broadcasts_S1x16_S5000x16 (ix2 p j) (ix2 (0 : Fin 1) j) (fun a => match a with
    | ⟨0, _⟩ => by show 0 = if (1 : Nat) = 1 then 0 else p.val; rw [if_pos rfl]
    | ⟨1, _⟩ => by show j.val = if (16 : Nat) = 1 then 0 else j.val; rw [if_neg (by decide)])

theorem logits_apply (h : FVec Ideal Cert.ReferenceIdeal.S100000x64 .f32) (w : FVec Ideal Cert.ReferenceIdeal.S64x16 .f32)
    (b : FVec Ideal Cert.ReferenceIdeal.S1x16 .f32) (r : Fin 100000) (j : Fin 16) :
    Cert.Spec.logits (F := Ideal) h w b (ix2 r j) = (∑ k : Fin 64, h (ix2 r k) * w (ix2 k j)) + b (ix2 (0 : Fin 1) j) := by
  unfold Cert.Spec.logits
  rw [addf_apply, host_dot_apply]
  refine congrArg (_ + ·) ?_
  exact broadcastInDim_apply _ Cert.ReferenceIdeal.Facts₀.bcast_S1x16_S100000x16_0_1 b (ix2 r j) (ix2 (0 : Fin 1) j) (fun a => match a with
    | ⟨0, _⟩ => by show 0 = if (1 : Nat) = 1 then 0 else r.val; rw [if_pos rfl]
    | ⟨1, _⟩ => by show j.val = if (16 : Nat) = 1 then 0 else j.val; rw [if_neg (by decide)])

/-! ## One row of one block against the same row of the array -/

/-- Row p of a block whose rows, matrix and bias are the array's row r, matrix and bias: the kernel's stored value at
    (p, j) is the reference's at (r, j). -/
theorem point_eq (x0 : Vec Ideal S5000x64 .f32) (x1 : Vec Ideal S64x16 .f32) (x2 : Vec Ideal S1x16 .f32)
    (H : FVec Ideal Cert.ReferenceIdeal.S100000x64 .f32) (W : FVec Ideal Cert.ReferenceIdeal.S64x16 .f32)
    (B : FVec Ideal Cert.ReferenceIdeal.S1x16 .f32) (p : Fin 5000) (r : Fin 100000) (j : Fin 16)
    (h0 : ∀ k : Fin 64, x0 (ix2 p k) = H (ix2 r k)) (h1 : ∀ (k : Fin 64) (l : Fin 16), x1 (ix2 k l) = W (ix2 k l))
    (h2 : ∀ l : Fin 16, x2 (ix2 (0 : Fin 1) l) = B (ix2 (0 : Fin 1) l)) :
    kTail (kLogits x0 x1 x2) (ix2 p j) = Cert.Spec.fcLogSoftmax (F := Ideal) H W B (ix2 r j) := by
  unfold Cert.Spec.fcLogSoftmax
  rw [kTail_apply, logSoftmax_apply]
  refine congrArg (fun z => rowLogSoftmax z j) (funext fun l => ?_)
  rw [kLogits_apply, logits_apply, h2]
  refine congrArg (· + _) (Finset.sum_congr rfl fun k _ => ?_)
  rw [h0, h1]

/-! ## From the blocks to the array -/

theorem zero_offsets : (![0, 0] : Fin 2 → Nat) = fun _ => 0 := funext fun a => by fin_cases a <;> rfl

/-- The printed index maps over the twenty points: the row windows are at block (t, 0), the matrix and the bias at (0, 0). -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the reference's function of the arrays as the region finds them. -/
theorem flushed_eq (c : Dev nD) (t : Fin cfg4.N) :
    (dat4 (F := Ideal) V c).flushed 3 t
      = ((cfg4.win 3).blk t).view.read (Elt Ideal) (Cert.Spec.fcLogSoftmax (F := Ideal) (V c main_v63) (V c main_arg6) (V c main_v64)) := by
  show (cfg4.win 3).cut (grid4.coords t) ((dat4 (F := Ideal) V c).after 3 t) = _
  rw [after4_3]
  unfold out4_3
  rw [View.canon_unit_zero zero_offsets]
  simp only [View.ld_unit_zero (S := S5000x64) zero_offsets, View.ld_unit_zero (S := S64x16) zero_offsets, View.ld_unit_zero (S := S1x16) zero_offsets]
  rw [pay_eq]
  obtain ⟨e0, e1, e2, e3, e4, e5, e6, e7⟩ := block_indices t
  have ht : t.val < 20 := lt_of_lt_of_eq t.isLt N_4
  funext y
  obtain ⟨p, j, rfl⟩ : ∃ (p : Fin 5000) (j : Fin 16), y = ix2 p j := ⟨y 0, y 1, eq_ix2 y⟩
  have hr : t.val * 5000 + p.val < 100000 := by have := p.isLt; omega
  show kTail (kLogits (iblk4 V c 0 t) (iblk4 V c 1 t) (iblk4 V c 2 t)) (ix2 p j)
    = Cert.Spec.fcLogSoftmax (F := Ideal) (V c main_v63) (V c main_arg6) (V c main_v64) (((cfg4.win 3).blk t).view.emb (ix2 p j))
  have hemb : ((cfg4.win 3).blk t).view.emb (ix2 p j) = ix2 (⟨t.val * 5000 + p.val, hr⟩ : Fin 100000) j := by
    funext a; apply Fin.ext
    match a with
    | ⟨0, _⟩ => show win4_3.index t (0 : Fin 2) * 5000 + 1 * p.val = t.val * 5000 + p.val; omega
    | ⟨1, _⟩ => show win4_3.index t (1 : Fin 2) * 16 + 1 * j.val = j.val; omega
  rw [hemb]
  refine point_eq _ _ _ _ _ _ p ⟨t.val * 5000 + p.val, hr⟩ j ?_ ?_ ?_
  · intro k
    show V c main_v63 (((cfg4.win 0).blk t).view.emb (ix2 p k)) = V c main_v63 (ix2 (⟨t.val * 5000 + p.val, hr⟩ : Fin 100000) k)
    refine congrArg (V c main_v63) ?_
    funext a; apply Fin.ext
    match a with
    | ⟨0, _⟩ => show win4_0.index t (0 : Fin 2) * 5000 + 1 * p.val = t.val * 5000 + p.val; omega
    | ⟨1, _⟩ => show win4_0.index t (1 : Fin 2) * 64 + 1 * k.val = k.val; omega
  · intro k l
    show V c main_arg6 (((cfg4.win 1).blk t).view.emb (ix2 k l)) = V c main_arg6 (ix2 k l)
    refine congrArg (V c main_arg6) ?_
    funext a; apply Fin.ext
    match a with
    | ⟨0, _⟩ => show win4_1.index t (0 : Fin 2) * 64 + 1 * k.val = k.val; omega
    | ⟨1, _⟩ => show win4_1.index t (1 : Fin 2) * 16 + 1 * l.val = l.val; omega
  · intro l
    show V c main_v64 (((cfg4.win 2).blk t).view.emb (ix2 (0 : Fin 1) l)) = V c main_v64 (ix2 (0 : Fin 1) l)
    refine congrArg (V c main_v64) ?_
    funext a; apply Fin.ext
    match a with
    | ⟨0, _⟩ => show win4_2.index t (0 : Fin 2) * 1 + 1 * 0 = 0; omega
    | ⟨1, _⟩ => show win4_2.index t (1 : Fin 2) * 16 + 1 * l.val = l.val; omega

/-- An index of the array is in point t's block iff each coordinate is in the block's range on its axis. -/
theorem mem_block (t : Fin cfg4.N) (i : S100000x16.Idx) :
    i ∈ ((cfg4.win 3).blk t).view.set ↔ ∀ a : Fin 2, win4_3.index t a * S5000x16.size a ≤ (i a).val ∧ (i a).val < win4_3.index t a * S5000x16.size a + S5000x16.size a := by
  show i ∈ ((View.whole main_v65).slice (win4_3.rect t)).set ↔ _
  rw [View.set_slice_whole, Rect.mem_set_unit]
  exact Iff.rfl

/-- Every row of the array is in the block of the point its number divided by 5000 names. -/
theorem covered (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  have hN : cfg4.N = 20 := N_4
  refine ⟨⟨(i 0).val / 5000, by rw [hN]; omega⟩, flush4_3 _, ?_⟩
  rw [mem_block]
  obtain ⟨-, -, -, -, -, -, e6, e7⟩ := block_indices ⟨(i 0).val / 5000, by rw [hN]; omega⟩
  intro a
  match a with
  | ⟨0, _⟩ =>
    show win4_3.index _ (0 : Fin 2) * 5000 ≤ (i 0).val ∧ (i 0).val < win4_3.index _ (0 : Fin 2) * 5000 + 5000
    rw [e6]; show (i 0).val / 5000 * 5000 ≤ (i 0).val ∧ (i 0).val < (i 0).val / 5000 * 5000 + 5000; omega
  | ⟨1, _⟩ =>
    show win4_3.index _ (1 : Fin 2) * 16 ≤ (i 1).val ∧ (i 1).val < win4_3.index _ (1 : Fin 2) * 16 + 16
    rw [e7]; omega

theorem final (c : Dev nD) :
    (dat4 (F := Ideal) V c).arrAt 3 cfg4.N = Cert.Spec.fcLogSoftmax (F := Ideal) (V c main_v63) (V c main_arg6) (V c main_v64) := by
  exact (dat4 (F := Ideal) V c).arrAt_eq_of_cover 3 _ (fun t _ => flushed_eq V c t) covered

end Cert.KernelIdeal.Fc4

end
-- ==== Proof.KChain.lean ====
/-
  The kernel program's result as the network function of its arguments, at the ideal instance: each pallas_call leaves its output array at the dense map of its input arrays (the five region modules), each host stretch between them its aggregation or bias row (the host-stretch module); followed from the launch to the return, the result buffer ends at `Cert.Spec.net` of the arguments.
-/
import proofs.«417706_j31241592111373_4_alg».proof.Proof.KHost
import proofs.«417706_j31241592111373_4_alg».proof.Proof.KLin0
import proofs.«417706_j31241592111373_4_alg».proof.Proof.KLin2
import proofs.«417706_j31241592111373_4_alg».proof.Proof.KBias1
import proofs.«417706_j31241592111373_4_alg».proof.Proof.KBias3
import proofs.«417706_j31241592111373_4_alg».proof.Proof.KFc4

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The first layer -/

theorem W4_v32 (c : Dev nD) : W4 m ρ c (Proc.devRef .tc main_v32) = Cert.Spec.lin (m ((c : Thread nD τ).loc main_arg0)) (m ((c : Thread nD τ).loc main_arg2)) :=
  (W4_arr m ρ c 2).trans ((Cert.KernelIdeal.Lin0.final (V3 m ρ) c).trans (by
    rw [show V3 m ρ c main_arg0 = _ from Cert.KernelIdeal.Host.W3_arg0 m ρ c, show V3 m ρ c main_arg2 = _ from Cert.KernelIdeal.Host.W3_arg2 m ρ c]))

theorem W6_v47 (c : Dev nD) : W6 m ρ c (Proc.devRef .tc main_v47) = Cert.Spec.biasRelu (Cert.Spec.agg (m ((c : Thread nD τ).loc main_arg1)) (Cert.Spec.lin (m ((c : Thread nD τ).loc main_arg0)) (m ((c : Thread nD τ).loc main_arg2)))) (Cert.Spec.row64 (m ((c : Thread nD τ).loc main_arg3))) :=
  (W6_arr m ρ c 2).trans ((Cert.KernelIdeal.Bias1.final (V5 m ρ) c).trans (by
    rw [show V5 m ρ c main_v45 = _ from Cert.KernelIdeal.Host.W5_v45 m ρ c _ (W4_v32 m ρ c), show V5 m ρ c main_v46 = _ from Cert.KernelIdeal.Host.W5_v46 m ρ c]))

/-! ## The second layer -/

theorem W7_v48 (c : Dev nD) : W7 m ρ c (Proc.devRef .tc main_v48) = Cert.Spec.lin (Cert.Spec.biasRelu (Cert.Spec.agg (m ((c : Thread nD τ).loc main_arg1)) (Cert.Spec.lin (m ((c : Thread nD τ).loc main_arg0)) (m ((c : Thread nD τ).loc main_arg2)))) (Cert.Spec.row64 (m ((c : Thread nD τ).loc main_arg3)))) (m ((c : Thread nD τ).loc main_arg4)) :=
  (W7_arr m ρ c 2).trans ((Cert.KernelIdeal.Lin2.final (V6 m ρ) c).trans (by
    rw [show V6 m ρ c main_v47 = _ from W6_v47 m ρ c, show V6 m ρ c main_arg4 = _ from Cert.KernelIdeal.Host.W6_arg4 m ρ c]))

theorem W9_v63 (c : Dev nD) : W9 m ρ c (Proc.devRef .tc main_v63) = Cert.Spec.biasRelu (Cert.Spec.agg (m ((c : Thread nD τ).loc main_arg1)) (Cert.Spec.lin (Cert.Spec.biasRelu (Cert.Spec.agg (m ((c : Thread nD τ).loc main_arg1)) (Cert.Spec.lin (m ((c : Thread nD τ).loc main_arg0)) (m ((c : Thread nD τ).loc main_arg2)))) (Cert.Spec.row64 (m ((c : Thread nD τ).loc main_arg3)))) (m ((c : Thread nD τ).loc main_arg4)))) (Cert.Spec.row64 (m ((c : Thread nD τ).loc main_arg5))) :=
  (W9_arr m ρ c 2).trans ((Cert.KernelIdeal.Bias3.final (V8 m ρ) c).trans (by
    rw [show V8 m ρ c main_v61 = _ from Cert.KernelIdeal.Host.W8_v61 m ρ c _ (W7_v48 m ρ c), show V8 m ρ c main_v62 = _ from Cert.KernelIdeal.Host.W8_v62 m ρ c]))

/-! ## The last layer -/

/-- The result buffer at the last boundary is the network function of the launch contents of the arguments. -/
theorem W11_v65 (c : Dev nD) : W11 m ρ c (Proc.devRef .tc main_v65) = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W11_arr m ρ c 3).trans ((Cert.KernelIdeal.Fc4.final (V10 m ρ) c).trans (by
    rw [show V10 m ρ c main_v63 = _ from (Cert.KernelIdeal.Host.W10_v63 m ρ c).trans (W9_v63 m ρ c), show V10 m ρ c main_arg6 = _ from Cert.KernelIdeal.Host.W10_arg6 m ρ c, show V10 m ρ c main_v64 = _ from Cert.KernelIdeal.Host.W10_v64 m ρ c, Cert.Spec.net_eq]))

end Cert.KernelIdeal.Chain

end
-- ==== Proof.RefChain.lean ====
/-
  The reference program's run, stage by stage (at any float instance): its 108 host operations cut into six stretches
  — the edge lists and degrees; the guarded inverse square root; the edge weights; the first layer; the second layer;
  the last dense layer with its log-softmax — and the buffer contents after each stretch read as the stage functions of
  Proof/Spec.lean. The result buffer ends at the network function `Cert.Spec.net` of the arguments, the arguments unchanged.
-/
import proofs.«417706_j31241592111373_4_alg».proof.Proof.RefRun
import proofs.«417706_j31241592111373_4_alg».proof.Proof.Spec
import Idealize.ShloMosaic.Lib.Pipeline.Frame

set_option maxRecDepth 16384

noncomputable section

namespace Cert.ReferenceIdeal.Chain

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- A buffer that no operation of a stretch writes is read after the stretch as before it. -/
macro "kept_through" ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The six stretches -/

/-- The edge lists with the self-loops, the in-degree, its comparison with zero and its guarded inverse square root's operand. -/
abbrev ops1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]

/-- The select that puts zero where the degree is zero. -/
abbrev ops2 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- The edge weights. -/
abbrev ops3 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The first layer: product, aggregation, bias, maximum with zero. -/
abbrev ops4 : List (HloOp τ sig (Elt F)) :=
  [ binary main_arg0 main_arg2 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf ]

/-- The second layer. -/
abbrev ops5 : List (HloOp τ sig (Elt F)) :=
  [ binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x64 ![0, 1] bcast_S1700000x1_S1700000x64_0_1 : (⟨S1700000x1, .f32⟩ : BufTy).Contents (Elt F) → (⟨S1700000x64, .f32⟩ : BufTy).Contents (Elt F)),
    binary main_v57 main_v59 main_v60 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v66) (TRef.of (T := ⟨S100000x64, .f32⟩) main_call2_v0) (TRef.of (T := ⟨S100000x64, .f32⟩) main_v67) maximumf ]

/-- The last dense layer: the logits. -/
abbrev ops6 : List (HloOp τ sig (Elt F)) :=
  [ binary main_v67 main_arg6 main_v68 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg7 main_v69 (broadcastInDim S1x16 ![1] bcast_S16_S1x16_1 : (⟨S16, .f32⟩ : BufTy).Contents (Elt F) → (⟨S1x16, .f32⟩ : BufTy).Contents (Elt F)),
    unary main_v69 main_v70 (broadcastInDim S100000x16 ![0, 1] bcast_S1x16_S100000x16_0_1 : (⟨S1x16, .f32⟩ : BufTy).Contents (Elt F) → (⟨S100000x16, .f32⟩ : BufTy).Contents (Elt F)),
    binary main_v68 main_v70 main_v71 (addf : (⟨S100000x16, .f32⟩ : BufTy).Contents (Elt F) → (⟨S100000x16, .f32⟩ : BufTy).Contents (Elt F) → (⟨S100000x16, .f32⟩ : BufTy).Contents (Elt F)) ]
/-- The log-softmax: each row's maximum. -/
abbrev ops7 : List (HloOp τ sig (Elt F)) :=
  [ TRef.nullary (TRef.of (T := ⟨S_, .f32⟩) main_call3_cst) (constant S_ .f32 0xFF800000#32),
    TRef.binary (TRef.of (T := ⟨S100000x16, .f32⟩) main_v71) (TRef.of (T := ⟨S_, .f32⟩) main_call3_cst) (TRef.of (T := ⟨S100000, .f32⟩) main_call3_v0) (fun x v => Host.reduce FloatOps.maximumf x v reducesTo_S100000x16_S100000_d1 h_S_) ]
/-- The log-softmax: the entries minus their row's maximum. -/
abbrev ops8 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v71) (TRef.of (T := ⟨S100000x16, .f32⟩) main_call3_v4) (TRef.of (T := ⟨S100000x16, .f32⟩) main_call3_v5) subf ]
/-- The log-softmax: minus the logarithm of the row's sum of exponentials. -/
abbrev ops9 : List (HloOp τ sig (Elt F)) :=
  [ TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v72) subf ]

theorem ops_eq : (ops : List (HloOp τ sig (Elt F))) = ops1 ++ (ops2 ++ (ops3 ++ (ops4 ++ (ops5 ++ (ops6 ++ (ops7 ++ (ops8 ++ ops9))))))) := rfl

/-! ## The contents after each stretch, from any contents `V` -/

variable (V : Valuation τ sig (Elt F))

abbrev R0 : Valuation τ sig (Elt F) := V
abbrev R1 : Valuation τ sig (Elt F) := StableHlo.after ops1 (R0 V)
abbrev R2 : Valuation τ sig (Elt F) := StableHlo.after ops2 (R1 V)
abbrev R3 : Valuation τ sig (Elt F) := StableHlo.after ops3 (R2 V)
abbrev R4 : Valuation τ sig (Elt F) := StableHlo.after ops4 (R3 V)
abbrev R5 : Valuation τ sig (Elt F) := StableHlo.after ops5 (R4 V)
abbrev R6 : Valuation τ sig (Elt F) := StableHlo.after ops6 (R5 V)
abbrev R7 : Valuation τ sig (Elt F) := StableHlo.after ops7 (R6 V)
abbrev R8 : Valuation τ sig (Elt F) := StableHlo.after ops8 (R7 V)
abbrev R9 : Valuation τ sig (Elt F) := StableHlo.after ops9 (R8 V)

theorem after_ops : StableHlo.after (ops : List (HloOp τ sig (Elt F))) V = R9 V := by
  rw [ops_eq]
  simp only [StableHlo.after_append]

theorem R1_v3 : R1 V (Proc.devRef .tc main_v3) = Cert.Spec.srcIdx (V (Proc.devRef .tc main_arg1)) := by
  show StableHlo.after ops1 V (Proc.devRef .tc main_v3) = _
  after_results
  rfl

theorem R1_v6 : R1 V (Proc.devRef .tc main_v6) = Cert.Spec.dstIdx (V (Proc.devRef .tc main_arg1)) := by
  show StableHlo.after ops1 V (Proc.devRef .tc main_v6) = _
  after_results
  rfl

theorem R1_v12 : R1 V (Proc.devRef .tc main_v12) = cmpf (F := F) .ogt (Cert.Spec.deg (Cert.Spec.dstIdx (V (Proc.devRef .tc main_arg1)))) (broadcastInDim S100000 ![] bcast_S_S100000 (constant S_ .f32 0x00000000#32)) := by
  show StableHlo.after ops1 V (Proc.devRef .tc main_v12) = _
  after_results
  rfl

theorem R1_v15 : R1 V (Proc.devRef .tc main_v15) = Host.rsqrt (maximumf (Cert.Spec.deg (Cert.Spec.dstIdx (V (Proc.devRef .tc main_arg1)))) (broadcastInDim S100000 ![] bcast_S_S100000 (constant S_ .f32 0x3F800000#32))) := by
  show StableHlo.after ops1 V (Proc.devRef .tc main_v15) = _
  after_results
  rfl

theorem R1_cst_3 : (R1 V (Proc.devRef .tc main_cst_3) : Vec F S_ .f32) = constant (F := F) S_ .f32 0x00000000#32 := by
  show StableHlo.after ops1 V (Proc.devRef .tc main_cst_3) = _
  after_results

theorem R2_v16 : R2 V (Proc.devRef .tc main_v16) = Cert.Spec.dinv (Cert.Spec.dstIdx (V (Proc.devRef .tc main_arg1))) := by
  show StableHlo.after ops2 (R1 V) (Proc.devRef .tc main_v16) = _
  have e12 := R1_v12 V
  have e15 := R1_v15 V
  have e3 := R1_cst_3 V
  generalize R1 V = X at e12 e15 e3 ⊢
  after_results_simp
  rw [e12, e15, e3]
  try simp only [TRef.ofBuf, TRef.toBuf, cast_eq]
  rfl

theorem R2_v3 : R2 V (Proc.devRef .tc main_v3) = Cert.Spec.srcIdx (V (Proc.devRef .tc main_arg1)) :=
  calc R2 V (Proc.devRef .tc main_v3)
    _ = R1 V (Proc.devRef .tc main_v3) := by kept_through ops2
    _ = Cert.Spec.srcIdx (V (Proc.devRef .tc main_arg1)) := R1_v3 V

theorem R2_v6 : R2 V (Proc.devRef .tc main_v6) = Cert.Spec.dstIdx (V (Proc.devRef .tc main_arg1)) :=
  calc R2 V (Proc.devRef .tc main_v6)
    _ = R1 V (Proc.devRef .tc main_v6) := by kept_through ops2
    _ = Cert.Spec.dstIdx (V (Proc.devRef .tc main_arg1)) := R1_v6 V

theorem R3_v31 : R3 V (Proc.devRef .tc main_v31) = Cert.Spec.norm (Cert.Spec.srcIdx (V (Proc.devRef .tc main_arg1))) (Cert.Spec.dstIdx (V (Proc.devRef .tc main_arg1))) := by
  show StableHlo.after ops3 (R2 V) (Proc.devRef .tc main_v31) = _
  have e16 := R2_v16 V
  have e3 := R2_v3 V
  have e6 := R2_v6 V
  generalize R2 V = X at e16 e3 e6 ⊢
  after_results_simp
  rw [e16, e3, e6]
  try simp only [TRef.ofBuf, TRef.toBuf, cast_eq]
  rfl

theorem R3_v3 : R3 V (Proc.devRef .tc main_v3) = Cert.Spec.srcIdx (V (Proc.devRef .tc main_arg1)) :=
  calc R3 V (Proc.devRef .tc main_v3)
    _ = R2 V (Proc.devRef .tc main_v3) := by kept_through ops3
    _ = Cert.Spec.srcIdx (V (Proc.devRef .tc main_arg1)) := R2_v3 V

theorem R3_v6 : R3 V (Proc.devRef .tc main_v6) = Cert.Spec.dstIdx (V (Proc.devRef .tc main_arg1)) :=
  calc R3 V (Proc.devRef .tc main_v6)
    _ = R2 V (Proc.devRef .tc main_v6) := by kept_through ops3
    _ = Cert.Spec.dstIdx (V (Proc.devRef .tc main_arg1)) := R2_v6 V

theorem R3_arg0 : R3 V (Proc.devRef .tc main_arg0) = V (Proc.devRef .tc main_arg0) :=
  calc R3 V (Proc.devRef .tc main_arg0)
    _ = R2 V (Proc.devRef .tc main_arg0) := by kept_through ops3
    _ = R1 V (Proc.devRef .tc main_arg0) := by kept_through ops2
    _ = R0 V (Proc.devRef .tc main_arg0) := by kept_through ops1
    _ = V (Proc.devRef .tc main_arg0) := rfl

theorem R3_arg2 : R3 V (Proc.devRef .tc main_arg2) = V (Proc.devRef .tc main_arg2) :=
  calc R3 V (Proc.devRef .tc main_arg2)
    _ = R2 V (Proc.devRef .tc main_arg2) := by kept_through ops3
    _ = R1 V (Proc.devRef .tc main_arg2) := by kept_through ops2
    _ = R0 V (Proc.devRef .tc main_arg2) := by kept_through ops1
    _ = V (Proc.devRef .tc main_arg2) := rfl

theorem R3_arg3 : R3 V (Proc.devRef .tc main_arg3) = V (Proc.devRef .tc main_arg3) :=
  calc R3 V (Proc.devRef .tc main_arg3)
    _ = R2 V (Proc.devRef .tc main_arg3) := by kept_through ops3
    _ = R1 V (Proc.devRef .tc main_arg3) := by kept_through ops2
    _ = R0 V (Proc.devRef .tc main_arg3) := by kept_through ops1
    _ = V (Proc.devRef .tc main_arg3) := rfl

theorem R4_v49 : R4 V (Proc.devRef .tc main_v49) = Cert.Spec.biasRelu (Cert.Spec.agg (V (Proc.devRef .tc main_arg1)) (Cert.Spec.lin (V (Proc.devRef .tc main_arg0)) (V (Proc.devRef .tc main_arg2)))) (Cert.Spec.row64 (V (Proc.devRef .tc main_arg3))) := by
  show StableHlo.after ops4 (R3 V) (Proc.devRef .tc main_v49) = _
  have e3 := R3_v3 V
  have e6 := R3_v6 V
  have e31 := R3_v31 V
  have a0 := R3_arg0 V
  have a2 := R3_arg2 V
  have a3 := R3_arg3 V
  generalize R3 V = X at e3 e6 e31 a0 a2 a3 ⊢
  after_results_simp
  rw [e3, e6, e31, a0, a2, a3]
  try simp only [TRef.ofBuf, TRef.toBuf, cast_eq]
  rfl

theorem R4_v3 : R4 V (Proc.devRef .tc main_v3) = Cert.Spec.srcIdx (V (Proc.devRef .tc main_arg1)) :=
  calc R4 V (Proc.devRef .tc main_v3)
    _ = R3 V (Proc.devRef .tc main_v3) := by kept_through ops4
    _ = Cert.Spec.srcIdx (V (Proc.devRef .tc main_arg1)) := R3_v3 V

theorem R4_v6 : R4 V (Proc.devRef .tc main_v6) = Cert.Spec.dstIdx (V (Proc.devRef .tc main_arg1)) :=
  calc R4 V (Proc.devRef .tc main_v6)
    _ = R3 V (Proc.devRef .tc main_v6) := by kept_through ops4
    _ = Cert.Spec.dstIdx (V (Proc.devRef .tc main_arg1)) := R3_v6 V

theorem R4_v31 : R4 V (Proc.devRef .tc main_v31) = Cert.Spec.norm (Cert.Spec.srcIdx (V (Proc.devRef .tc main_arg1))) (Cert.Spec.dstIdx (V (Proc.devRef .tc main_arg1))) :=
  calc R4 V (Proc.devRef .tc main_v31)
    _ = R3 V (Proc.devRef .tc main_v31) := by kept_through ops4
    _ = Cert.Spec.norm (Cert.Spec.srcIdx (V (Proc.devRef .tc main_arg1))) (Cert.Spec.dstIdx (V (Proc.devRef .tc main_arg1))) := R3_v31 V

theorem R4_arg4 : R4 V (Proc.devRef .tc main_arg4) = V (Proc.devRef .tc main_arg4) :=
  calc R4 V (Proc.devRef .tc main_arg4)
    _ = R3 V (Proc.devRef .tc main_arg4) := by kept_through ops4
    _ = R2 V (Proc.devRef .tc main_arg4) := by kept_through ops3
    _ = R1 V (Proc.devRef .tc main_arg4) := by kept_through ops2
    _ = R0 V (Proc.devRef .tc main_arg4) := by kept_through ops1
    _ = V (Proc.devRef .tc main_arg4) := rfl

theorem R4_arg5 : R4 V (Proc.devRef .tc main_arg5) = V (Proc.devRef .tc main_arg5) :=
  calc R4 V (Proc.devRef .tc main_arg5)
    _ = R3 V (Proc.devRef .tc main_arg5) := by kept_through ops4
    _ = R2 V (Proc.devRef .tc main_arg5) := by kept_through ops3
    _ = R1 V (Proc.devRef .tc main_arg5) := by kept_through ops2
    _ = R0 V (Proc.devRef .tc main_arg5) := by kept_through ops1
    _ = V (Proc.devRef .tc main_arg5) := rfl

theorem R5_v67 : R5 V (Proc.devRef .tc main_v67) = Cert.Spec.biasRelu (Cert.Spec.agg (V (Proc.devRef .tc main_arg1)) (Cert.Spec.lin (Cert.Spec.biasRelu (Cert.Spec.agg (V (Proc.devRef .tc main_arg1)) (Cert.Spec.lin (V (Proc.devRef .tc main_arg0)) (V (Proc.devRef .tc main_arg2)))) (Cert.Spec.row64 (V (Proc.devRef .tc main_arg3)))) (V (Proc.devRef .tc main_arg4)))) (Cert.Spec.row64 (V (Proc.devRef .tc main_arg5))) := by
  show StableHlo.after ops5 (R4 V) (Proc.devRef .tc main_v67) = _
  have e3 := R4_v3 V
  have e6 := R4_v6 V
  have e31 := R4_v31 V
  have e49 := R4_v49 V
  have a4 := R4_arg4 V
  have a5 := R4_arg5 V
  generalize R4 V = X at e3 e6 e31 e49 a4 a5 ⊢
  after_results_simp
  rw [e3, e6, e31, e49, a4, a5]
  try simp only [TRef.ofBuf, TRef.toBuf, cast_eq]
  rfl

theorem R5_arg6 : R5 V (Proc.devRef .tc main_arg6) = V (Proc.devRef .tc main_arg6) :=
  calc R5 V (Proc.devRef .tc main_arg6)
    _ = R4 V (Proc.devRef .tc main_arg6) := by kept_through ops5
    _ = R3 V (Proc.devRef .tc main_arg6) := by kept_through ops4
    _ = R2 V (Proc.devRef .tc main_arg6) := by kept_through ops3
    _ = R1 V (Proc.devRef .tc main_arg6) := by kept_through ops2
    _ = R0 V (Proc.devRef .tc main_arg6) := by kept_through ops1
    _ = V (Proc.devRef .tc main_arg6) := rfl

theorem R5_arg7 : R5 V (Proc.devRef .tc main_arg7) = V (Proc.devRef .tc main_arg7) :=
  calc R5 V (Proc.devRef .tc main_arg7)
    _ = R4 V (Proc.devRef .tc main_arg7) := by kept_through ops5
    _ = R3 V (Proc.devRef .tc main_arg7) := by kept_through ops4
    _ = R2 V (Proc.devRef .tc main_arg7) := by kept_through ops3
    _ = R1 V (Proc.devRef .tc main_arg7) := by kept_through ops2
    _ = R0 V (Proc.devRef .tc main_arg7) := by kept_through ops1
    _ = V (Proc.devRef .tc main_arg7) := rfl

theorem R6_v71 : R6 V (Proc.devRef .tc main_v71) = Cert.Spec.logits (Cert.Spec.biasRelu (Cert.Spec.agg (V (Proc.devRef .tc main_arg1)) (Cert.Spec.lin (Cert.Spec.biasRelu (Cert.Spec.agg (V (Proc.devRef .tc main_arg1)) (Cert.Spec.lin (V (Proc.devRef .tc main_arg0)) (V (Proc.devRef .tc main_arg2)))) (Cert.Spec.row64 (V (Proc.devRef .tc main_arg3)))) (V (Proc.devRef .tc main_arg4)))) (Cert.Spec.row64 (V (Proc.devRef .tc main_arg5)))) (V (Proc.devRef .tc main_arg6)) (Cert.Spec.row16 (V (Proc.devRef .tc main_arg7))) := by
  show StableHlo.after ops6 (R5 V) (Proc.devRef .tc main_v71) = _
  have e67 := R5_v67 V
  have a6 := R5_arg6 V
  have a7 := R5_arg7 V
  generalize R5 V = X at e67 a6 a7 ⊢
  after_results_simp
  rw [e67, a6, a7]
  rfl

theorem R7_call3_v0 : R7 V (Proc.devRef .tc main_call3_v0) = Cert.Spec.rowMax (Cert.Spec.logits (Cert.Spec.biasRelu (Cert.Spec.agg (V (Proc.devRef .tc main_arg1)) (Cert.Spec.lin (Cert.Spec.biasRelu (Cert.Spec.agg (V (Proc.devRef .tc main_arg1)) (Cert.Spec.lin (V (Proc.devRef .tc main_arg0)) (V (Proc.devRef .tc main_arg2)))) (Cert.Spec.row64 (V (Proc.devRef .tc main_arg3)))) (V (Proc.devRef .tc main_arg4)))) (Cert.Spec.row64 (V (Proc.devRef .tc main_arg5)))) (V (Proc.devRef .tc main_arg6)) (Cert.Spec.row16 (V (Proc.devRef .tc main_arg7)))) := by
  show StableHlo.after ops7 (R6 V) (Proc.devRef .tc main_call3_v0) = _
  have e71 := R6_v71 V
  generalize R6 V = X at e71 ⊢
  generalize Cert.Spec.logits (F := F) _ _ _ = z at e71 ⊢
  after_results_simp
  rw [e71]
  unfold Cert.Spec.rowMax
  simp only [TRef.ofBuf, TRef.toBuf, cast_eq]

theorem R7_v71 : R7 V (Proc.devRef .tc main_v71) = Cert.Spec.logits (Cert.Spec.biasRelu (Cert.Spec.agg (V (Proc.devRef .tc main_arg1)) (Cert.Spec.lin (Cert.Spec.biasRelu (Cert.Spec.agg (V (Proc.devRef .tc main_arg1)) (Cert.Spec.lin (V (Proc.devRef .tc main_arg0)) (V (Proc.devRef .tc main_arg2)))) (Cert.Spec.row64 (V (Proc.devRef .tc main_arg3)))) (V (Proc.devRef .tc main_arg4)))) (Cert.Spec.row64 (V (Proc.devRef .tc main_arg5)))) (V (Proc.devRef .tc main_arg6)) (Cert.Spec.row16 (V (Proc.devRef .tc main_arg7))) :=
  calc R7 V (Proc.devRef .tc main_v71)
    _ = R6 V (Proc.devRef .tc main_v71) := by kept_through ops7
    _ = Cert.Spec.logits (Cert.Spec.biasRelu (Cert.Spec.agg (V (Proc.devRef .tc main_arg1)) (Cert.Spec.lin (Cert.Spec.biasRelu (Cert.Spec.agg (V (Proc.devRef .tc main_arg1)) (Cert.Spec.lin (V (Proc.devRef .tc main_arg0)) (V (Proc.devRef .tc main_arg2)))) (Cert.Spec.row64 (V (Proc.devRef .tc main_arg3)))) (V (Proc.devRef .tc main_arg4)))) (Cert.Spec.row64 (V (Proc.devRef .tc main_arg5)))) (V (Proc.devRef .tc main_arg6)) (Cert.Spec.row16 (V (Proc.devRef .tc main_arg7))) := R6_v71 V

/-- The shift over any contents: from the logits `z` and their row maxima `r`. -/
theorem ops8_call3_v5 (X : Valuation τ sig (Elt F)) (z : Vec F S100000x16 .f32) (r : Vec F S100000 .f32)
    (e71 : X (Proc.devRef .tc main_v71) = z) (e0 : X (Proc.devRef .tc main_call3_v0) = r) :
    StableHlo.after ops8 X (Proc.devRef .tc main_call3_v5) = Cert.Spec.shiftBy z r := by
  unfold Cert.Spec.shiftBy
  after_results_simp
  rw [e71, e0]
  rfl

theorem R8_call3_v5 : R8 V (Proc.devRef .tc main_call3_v5) = Cert.Spec.shifted (Cert.Spec.logits (Cert.Spec.biasRelu (Cert.Spec.agg (V (Proc.devRef .tc main_arg1)) (Cert.Spec.lin (Cert.Spec.biasRelu (Cert.Spec.agg (V (Proc.devRef .tc main_arg1)) (Cert.Spec.lin (V (Proc.devRef .tc main_arg0)) (V (Proc.devRef .tc main_arg2)))) (Cert.Spec.row64 (V (Proc.devRef .tc main_arg3)))) (V (Proc.devRef .tc main_arg4)))) (Cert.Spec.row64 (V (Proc.devRef .tc main_arg5)))) (V (Proc.devRef .tc main_arg6)) (Cert.Spec.row16 (V (Proc.devRef .tc main_arg7)))) :=
  (ops8_call3_v5 (R7 V) _ _ (R7_v71 V) (R7_call3_v0 V)).trans (Cert.Spec.shifted_eq _).symm

/-- The result buffer after all the operations is the network function of the arguments' contents. -/
theorem R9_v72 : R9 V (Proc.devRef .tc main_v72) = Cert.Spec.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  show StableHlo.after ops9 (R8 V) (Proc.devRef .tc main_v72) = _
  rw [Cert.Spec.net_eq]
  show _ = Cert.Spec.logSoftmax _
  rw [Cert.Spec.logSoftmax_eq]
  have e5 := R8_call3_v5 V
  generalize R8 V = X at e5 ⊢
  generalize Cert.Spec.shifted (F := F) _ = s at e5 ⊢
  after_results_simp
  rw [e5]
  rfl

theorem result_eq : StableHlo.after (ops : List (HloOp τ sig (Elt F))) V (Proc.devRef .tc main_v72) = Cert.Spec.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops]
  exact R9_v72 V

/-! ## The run -/

set_option maxRecDepth 8192 in
set_option maxHeartbeats 43200000 in
/-- On every device, from any memory with zero counters: every weakly fair execution of @main terminates with the result
    at the network function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v72).trans (result_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Chain

end
-- ==== Proof.lean ====
/-
  A two-layer graph convolution network (dense map, normalised neighbourhood sum, bias, maximum with zero; twice; then a
  dense layer and a row-wise log-softmax) as five TensorCore pallas_calls among host gathers and scatter-adds, against the
  same network written in jnp. Both programs do the same host operations on the edge list (self-loops appended, in-degree,
  inverse square roots, edge weights, gather / weight / scatter-add); the kernel program computes each dense map block by
  block (twenty blocks of 5000 rows), the reference as one whole-array operation. At the ideal instance a block's rows of
  a row-wise map are the whole array's rows, a matrix product into a zero accumulator is the host's product, and a lane
  reduction is the host's reduction: each pallas_call's output array is the reference's operation of its input arrays, and
  both results are one function `Cert.Spec.net` of the arguments. No algebraic law is needed and the precondition is not opened.
  The three frames: the kernel programs' are the generated frame certificates; the reference's is its run with the result dropped.
  The idealization rewrote nothing, so `preserves` is `True`.
-/
import proofs.«417706_j31241592111373_4_alg».proof.Defs
import proofs.«417706_j31241592111373_4_alg».proof.Proof.Gen.Kernel
import proofs.«417706_j31241592111373_4_alg».proof.Proof.Gen.Kernel.Frame
import proofs.«417706_j31241592111373_4_alg».proof.Proof.Gen.KernelIdeal
import proofs.«417706_j31241592111373_4_alg».proof.Proof.Gen.KernelIdeal.Frame
import proofs.«417706_j31241592111373_4_alg».proof.Proof.Gen.ReferenceIdeal
import proofs.«417706_j31241592111373_4_alg».proof.Proof.Gen.Pre_finite_inputs
import proofs.«417706_j31241592111373_4_alg».proof.Proof.KRun
import proofs.«417706_j31241592111373_4_alg».proof.Proof.KChain
import proofs.«417706_j31241592111373_4_alg».proof.Proof.RefChain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Chain.run (F := Ideal) m ρ)

theorem preserves : Cert.preserves_Kernel_KernelIdeal := trivial

/-- Both programs end with the result buffer at the network function of the (agreeing) arguments. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.W11_v65 m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Chain.run (F := Ideal) m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
